-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256x256 : Shape := ⟨2, ![256, 256]⟩
abbrev S4096x4096 : Shape := ⟨2, ![4096, 4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_arg5 : FVec F S4096x4096 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  main_v28

def fn {F : FTy → Type} [FloatOps F] (main_arg0 : FVec F S4096x256 .f32) (main_arg1 : FVec F S4096x256 .f32) (main_arg2 : FVec F S256x256 .f32) (main_arg3 : FVec F S256x256 .f32) (main_arg4 : FVec F S4096x4096 .f32) (main_arg5 : FVec F S4096x4096 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_v13 main_v16
-- ==== Kernel.lean ====
abbrev S4096x256 : Shape := ⟨2, ![4096, 256]⟩
abbrev S256x256 : Shape := ⟨2, ![256, 256]⟩
abbrev S4096x4096 : Shape := ⟨2, ![4096, 4096]⟩
abbrev S4096x512 : Shape := ⟨2, ![4096, 512]⟩
abbrev S512x256 : Shape := ⟨2, ![512, 256]⟩
abbrev S512x512 : Shape := ⟨2, ![512, 512]⟩
abbrev S512x4096 : Shape := ⟨2, ![512, 4096]⟩

abbrev nBuf : Space → Nat
  | .hbm => 11
  | .vmem => 17
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x256, .f32⟩
  | .hbm, ⟨3, _⟩ => ⟨S256x256, .f32⟩
  | .hbm, ⟨4, _⟩ => ⟨S4096x4096, .f32⟩
  | .hbm, ⟨5, _⟩ => ⟨S4096x4096, .f32⟩
  | .hbm, ⟨6, _⟩ => ⟨S256x256, .bf16⟩
  | .hbm, ⟨7, _⟩ => ⟨S256x256, .bf16⟩
  | .hbm, ⟨8, _⟩ => ⟨S4096x512, .bf16⟩
  | .hbm, ⟨9, _⟩ => ⟨S4096x256, .f32⟩
  | .hbm, ⟨10, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x256, .bf16⟩
  | .local _ .vmem, ⟨5, _⟩ => ⟨S256x256, .bf16⟩
  | .local _ .vmem, ⟨6, _⟩ => ⟨S512x512, .bf16⟩
  | .local _ .vmem, ⟨7, _⟩ => ⟨S512x512, .bf16⟩
  | .local _ .vmem, ⟨8, _⟩ => ⟨S512x4096, .f32⟩
  | .local _ .vmem, ⟨9, _⟩ => ⟨S512x4096, .f32⟩
  | .local _ .vmem, ⟨10, _⟩ => ⟨S512x4096, .f32⟩
  | .local _ .vmem, ⟨11, _⟩ => ⟨S512x4096, .f32⟩
  | .local _ .vmem, ⟨12, _⟩ => ⟨S4096x512, .bf16⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  concatenates_S512x256_S512x256_S512x512_d1 : Shape.Concatenates [S512x256, S512x256] S512x512 1
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S512x4096_S512x4096_0_0 : ∀ a, (![0, 0] : Fin 2 → Nat) a + S512x4096.size a ≤ S512x4096.size a
  h_S512x4096 : 0 < S512x4096.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  slices_S4096x512_o0_0_S4096x256 : S4096x512.Slices ![0, 0] S4096x256
  slices_S4096x512_o0_256_S4096x256 : S4096x512.Slices ![0, 256] S4096x256
  dot_S512x256_S256x256_S512x256_1_0_0_1_n_n_wf : DotDims.WF S512x256 S256x256 S512x256 [1] [0] [0] [1] [] []
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x512.size a
  hwx0_4 : ∀ i : grid0.Coords, EltTy.bits .bf16 = 32 ∨ (Rect.block (s := S4096x512) S512x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .f32 = 32 ∨ (Rect.block (s := S4096x4096) S512x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x512.size a ≤ S4096x512.size a
  hwx1_2 : ∀ i : grid1.Coords, EltTy.bits .bf16 = 32 ∨ (Rect.block (s := S4096x512) S4096x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S4096x256.size a
  hwx1_3 : ∀ i : grid1.Coords, EltTy.bits .f32 = 32 ∨ (Rect.block (s := S4096x256) S512x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S4096x256.size a
  hwx1_4 : ∀ i : grid1.Coords, EltTy.bits .f32 = 32 ∨ (Rect.block (s := S4096x256) S512x256.size (cc1_transform_4 i) (hinb1_4 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg4) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S4096x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S512x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S512x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x256 : Shape := ⟨2, ![4096, 256]⟩
abbrev S256x256 : Shape := ⟨2, ![256, 256]⟩
abbrev S4096x4096 : Shape := ⟨2, ![4096, 4096]⟩
abbrev S4096x512 : Shape := ⟨2, ![4096, 512]⟩
abbrev S512x256 : Shape := ⟨2, ![512, 256]⟩
abbrev S512x512 : Shape := ⟨2, ![512, 512]⟩
abbrev S256x512 : Shape := ⟨2, ![256, 512]⟩

abbrev nBuf : Space → Nat
  | .hbm => 10
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x256, .f32⟩
  | .hbm, ⟨3, _⟩ => ⟨S256x256, .f32⟩
  | .hbm, ⟨4, _⟩ => ⟨S4096x4096, .f32⟩
  | .hbm, ⟨5, _⟩ => ⟨S4096x4096, .f32⟩
  | .hbm, ⟨6, _⟩ => ⟨S4096x512, .f32⟩
  | .hbm, ⟨7, _⟩ => ⟨S4096x512, .f32⟩
  | .hbm, ⟨8, _⟩ => ⟨S4096x256, .f32⟩
  | .hbm, ⟨9, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x256, .f32⟩
  | .local _ .vmem, ⟨5, _⟩ => ⟨S256x256, .f32⟩
  | .local _ .vmem, ⟨6, _⟩ => ⟨S512x512, .f32⟩
  | .local _ .vmem, ⟨7, _⟩ => ⟨S512x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S512x512, .f32⟩
  | .local _ .vmem, ⟨13, _⟩ => ⟨S512x512, .f32⟩
  | .local _ .vmem, ⟨14, _⟩ => ⟨S256x512, .f32⟩
  | .local _ .vmem, ⟨15, _⟩ => ⟨S256x512, .f32⟩
  | .local _ .vmem, ⟨16, _⟩ => ⟨S256x256, .f32⟩
  | .local _ .vmem, ⟨17, _⟩ => ⟨S256x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_15 : BitVec 32 := 0#32
  let v23 : BitVec 1 := Scalar.cmpi .ne v22 c0_i32_15
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S512x256_S512x256_0_0 : ∀ a, (![0, 0] : Fin 2 → Nat) a + S512x256.size a ≤ S512x256.size a
  h_S512x256 : 0 < S512x256.numel
  inb_S256x256_S256x256_0_0 : ∀ a, (![0, 0] : Fin 2 → Nat) a + S256x256.size a ≤ S256x256.size a
  h_S256x256 : 0 < S256x256.numel
  concatenates_S512x256_S512x256_S512x512_d1 : Shape.Concatenates [S512x256, S512x256] S512x512 1
  inb_S512x512_S512x512_0_0 : ∀ a, (![0, 0] : Fin 2 → Nat) a + S512x512.size a ≤ S512x512.size a
  h_S512x512 : 0 < S512x512.numel
  shapeCasts_S256x256_S256x256 : S256x256.ShapeCasts S256x256
  shapeCasts_S512x512_S512x512 : S512x512.ShapeCasts S512x512
  inb_S256x512_S256x512_0_0 : ∀ a, (![0, 0] : Fin 2 → Nat) a + S256x512.size a ≤ S256x512.size a
  h_S256x512 : 0 < S256x512.numel
  slices_S512x512_o0_0_S512x256 : S512x512.Slices ![0, 0] S512x256
  slices_S512x512_o0_256_S512x256 : S512x512.Slices ![0, 256] S512x256
  inb_S256x512_S256x256_0_0 : ∀ a, (![0, 0] : Fin 2 → Nat) a + S256x256.size a ≤ S256x512.size a
  inb_S256x512_S256x256_0_256 : ∀ a, (![0, 256] : Fin 2 → Nat) a + S256x256.size a ≤ S256x512.size a
  slices_S4096x512_S4096x256_0_0 : S4096x512.Slices ![0, 0] S4096x256
  slices_S4096x512_S4096x256_0_256 : S4096x512.Slices ![0, 256] S4096x256
  dot_S512x256_S256x256_S512x256_1_0_0_1_n_n_wf : DotDims.WF S512x256 S256x256 S512x256 [1] [0] [0] [1] [] []
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x512.size a
  hwx0_4 : ∀ i : grid0.Coords, EltTy.bits .f32 = 32 ∨ (Rect.block (s := S4096x512) S512x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S4096x4096.size a
  hwx1_0 : ∀ i : grid1.Coords, EltTy.bits .f32 = 32 ∨ (Rect.block (s := S4096x4096) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S4096x4096.size a
  hwx1_1 : ∀ i : grid1.Coords, EltTy.bits .f32 = 32 ∨ (Rect.block (s := S4096x4096) S256x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x512.size a
  hwx1_2 : ∀ i : grid1.Coords, EltTy.bits .f32 = 32 ∨ (Rect.block (s := S4096x512) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S4096x512.size a
  hwx1_3 : ∀ i : grid1.Coords, EltTy.bits .f32 = 32 ∨ (Rect.block (s := S4096x512) S256x512.size (cc1_transform_3 i) (hinb1_3 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg4) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== Proof.Spec.lean ====
/-
  The two graph-convolution results as functions of the six argument arrays, entry by entry, on the extended reals.

  Feature stage.  With the attenuation  att s = exp (-1 · s):
      innerM (r, q) = ∑ κ < 256, (miu (r, κ) · att (sigma (r, κ))) · Wm (κ, q)
      innerS (r, q) = ∑ κ < 256, ((sigma (r, κ) · att (sigma (r, κ))) · att (sigma (r, κ))) · Ws (κ, q)
  and the two halves laid side by side form one 4096 × 512 array `inner`.

  Aggregation stage, over ANY 4096 × 512 array `inn`:
      aggM adj inn (r, c) = ∑ k < 4096, adj (r, k) · inn (k, c)
      aggS adj inn (r, c) = ∑ k < 4096, adj (r, k) · inn (k, 256 + c).
  The same sums taken eight blocks of 512 at a time, each block's partial sum added onto a running total that
  starts at zero, are `aggMB` and `aggSB`; addition of extended reals is associative and commutative, so the
  blocked totals are the whole sums (`accB_eight`).
-/
import Idealize.ShloMosaic.Lib.ValueIdx
import Idealize.ShloMosaic.PureOps.Ideal.Laws

namespace Cert.GC

open Idealize.ShloMosaic Idealize.ShloMosaic.ValueIdx

abbrev A4096x256 : Shape := ⟨2, ![4096, 256]⟩
abbrev A256x256 : Shape := ⟨2, ![256, 256]⟩
abbrev A4096x4096 : Shape := ⟨2, ![4096, 4096]⟩
abbrev A4096x512 : Shape := ⟨2, ![4096, 512]⟩

/-- The attenuation exp (-1 · s); the factor -1 is kept as the word both programs print. -/
noncomputable def att (s : EReal) : EReal := Ideal.exp (Ideal.ofBits .f32 0xBF800000#32 * s)

/-- The mean's feature: miu · att sigma. -/
noncomputable def featM (mu s : EReal) : EReal := mu * att s

/-- The variance's feature: (sigma · att sigma) · att sigma. -/
noncomputable def featS (s : EReal) : EReal := s * att s * att s

/-- The mean half of the feature transform at (r, q). -/
noncomputable def innerM (miu sigma : A4096x256.Idx → EReal) (wm : A256x256.Idx → EReal) (r : Fin 4096) (q : Fin 256) : EReal :=
  ∑ κ : Fin 256, featM (miu (ix2 r κ)) (sigma (ix2 r κ)) * wm (ix2 κ q)

/-- The variance half of the feature transform at (r, q). -/
noncomputable def innerS (sigma : A4096x256.Idx → EReal) (ws : A256x256.Idx → EReal) (r : Fin 4096) (q : Fin 256) : EReal :=
  ∑ κ : Fin 256, featS (sigma (ix2 r κ)) * ws (ix2 κ q)

/-- The two halves side by side: columns 0..255 the mean half, columns 256..511 the variance half. -/
noncomputable def inner (miu sigma : A4096x256.Idx → EReal) (wm ws : A256x256.Idx → EReal) : A4096x512.Idx → EReal := fun i =>
  if h : (i 1).val < 256 then innerM miu sigma wm ⟨(i 0).val, (i 0).isLt⟩ ⟨(i 1).val, h⟩
  else innerS sigma ws ⟨(i 0).val, (i 0).isLt⟩ ⟨(i 1).val - 256, by have := (i 1).isLt; change (i 1).val < 512 at this; omega⟩

theorem inner_left (miu sigma : A4096x256.Idx → EReal) (wm ws : A256x256.Idx → EReal) (r : Fin 4096) (q : Fin 256) :
    inner miu sigma wm ws (ix2 r (⟨q.val, by omega⟩ : Fin 512)) = innerM miu sigma wm r q := by
  unfold inner
  rw [dif_pos (show ((ix2 r (⟨q.val, by omega⟩ : Fin 512) : A4096x512.Idx) 1).val < 256 from q.isLt)]

theorem inner_right (miu sigma : A4096x256.Idx → EReal) (wm ws : A256x256.Idx → EReal) (r : Fin 4096) (q : Fin 256) :
    inner miu sigma wm ws (ix2 r (⟨256 + q.val, by omega⟩ : Fin 512)) = innerS sigma ws r q := by
  unfold inner
  rw [dif_neg (show ¬ ((ix2 r (⟨256 + q.val, by omega⟩ : Fin 512) : A4096x512.Idx) 1).val < 256 from by
    show ¬ (256 + q.val < 256); omega)]
  congr 1
  exact Fin.ext (show 256 + q.val - 256 = q.val by omega)

/-- One term of the aggregation over the mean half: adj (r, k) · inn (k, c). -/
noncomputable def termM (adj : A4096x4096.Idx → EReal) (inn : A4096x512.Idx → EReal) (r : Fin 4096) (c : Fin 256) (k : Fin 4096) : EReal :=
  adj (ix2 r k) * inn (ix2 k (⟨c.val, by omega⟩ : Fin 512))

/-- One term of the aggregation over the variance half: adj (r, k) · inn (k, 256 + c). -/
noncomputable def termS (adj : A4096x4096.Idx → EReal) (inn : A4096x512.Idx → EReal) (r : Fin 4096) (c : Fin 256) (k : Fin 4096) : EReal :=
  adj (ix2 r k) * inn (ix2 k (⟨256 + c.val, by omega⟩ : Fin 512))

/-- The aggregation of the mean half, whole sums. -/
noncomputable def aggM (adj : A4096x4096.Idx → EReal) (inn : A4096x512.Idx → EReal) : A4096x256.Idx → EReal := fun i =>
  ∑ k : Fin 4096, termM adj inn ⟨(i 0).val, (i 0).isLt⟩ ⟨(i 1).val, (i 1).isLt⟩ k

/-- The aggregation of the variance half, whole sums. -/
noncomputable def aggS (adj : A4096x4096.Idx → EReal) (inn : A4096x512.Idx → EReal) : A4096x256.Idx → EReal := fun i =>
  ∑ k : Fin 4096, termS adj inn ⟨(i 0).val, (i 0).isLt⟩ ⟨(i 1).val, (i 1).isLt⟩ k

/-- Block `kb` (of eight, 512 wide) of a sum over 4096 terms. -/
noncomputable def blockSum (f : Fin 4096 → EReal) (kb : ℕ) : EReal :=
  ∑ kk : Fin 512, f ⟨(kb % 8) * 512 + kk.val, by have := Nat.mod_lt kb (show 8 > 0 by norm_num); have := kk.isLt; omega⟩

/-- The running total after `n` blocks, from zero. -/
noncomputable def accB (f : Fin 4096 → EReal) : ℕ → EReal
  | 0 => 0
  | n + 1 => accB f n + blockSum f n

/-- The aggregation of the mean half, eight blocks added one after another. -/
noncomputable def aggMB (adj : A4096x4096.Idx → EReal) (inn : A4096x512.Idx → EReal) : A4096x256.Idx → EReal := fun i =>
  accB (termM adj inn ⟨(i 0).val, (i 0).isLt⟩ ⟨(i 1).val, (i 1).isLt⟩) 8

/-- The aggregation of the variance half, eight blocks added one after another. -/
noncomputable def aggSB (adj : A4096x4096.Idx → EReal) (inn : A4096x512.Idx → EReal) : A4096x256.Idx → EReal := fun i =>
  accB (termS adj inn ⟨(i 0).val, (i 0).isLt⟩ ⟨(i 1).val, (i 1).isLt⟩) 8

end Cert.GC
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.KVal0.lean ====
/-
  The kernel's feature-transform region: the 4096 × 512 array it leaves is the feature transform `inner` of the
  four arrays its windows read.
-/
import proofs.«153760_g2000202054435738_pallasbulk_107_3_alg».proof.Proof.Gen.KernelIdeal.Frame
import proofs.«153760_g2000202054435738_pallasbulk_107_3_alg».proof.Proof.Spec
import proofs.«153760_g2000202054435738_pallasbulk_107_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The body's result at an entry -/

/-- The product's dimension numbers are those of a plain matrix product [512, 256] · [256, 256]. -/
theorem plain_feature : Cert.PlainDot.Plain dot_S512x256_S256x256_S512x256_1_0_0_1_n_n :=
  ⟨rfl, rfl, rfl, rfl, rfl, rfl⟩

/-- Columns 0..255 of the body's result: row p of (x0 · att x1) against column q of the first weight block. -/
theorem pay_left (x0 x1 : Vec Ideal S512x256 .f32) (x2 x3 : Vec Ideal S256x256 .bf16) (p : Fin 512) (q : Fin 256) :
    k0_pay1 (F := Ideal) x0 x1 x2 x3 (ix2 p (⟨q.val, by omega⟩ : Fin 512))
      = ∑ κ : Fin 256, Cert.GC.featM (x0 (ix2 p κ)) (x1 (ix2 p κ)) * x2 (ix2 κ q) := by
  unfold k0_pay1
  rw [truncf_apply]
  refine (concatenate_pair_apply_left (s₁ := S512x256) (s₂ := S512x256) (1 : Fin 2) _ _ _ (ix2 p (⟨q.val, by omega⟩ : Fin 512)) rfl (ix2 p q)
    (fun b => by match b with | ⟨0, _⟩ => rfl | ⟨1, _⟩ => rfl)).trans ?_
  refine (Cert.PlainDot.matmul_zero_apply plain_feature rfl rfl none _ _ p q).trans ?_
  refine Finset.sum_congr rfl fun κ _ => ?_
  rw [shapeCast_self]
  rfl

/-- Columns 256..511 of the body's result: row p of (x1 · att x1 · att x1) against column q of the second weight block. -/
theorem pay_right (x0 x1 : Vec Ideal S512x256 .f32) (x2 x3 : Vec Ideal S256x256 .bf16) (p : Fin 512) (q : Fin 256) :
    k0_pay1 (F := Ideal) x0 x1 x2 x3 (ix2 p (⟨256 + q.val, by omega⟩ : Fin 512))
      = ∑ κ : Fin 256, Cert.GC.featS (x1 (ix2 p κ)) * x3 (ix2 κ q) := by
  unfold k0_pay1
  rw [truncf_apply]
  refine (concatenate_pair_apply_right (s₁ := S512x256) (s₂ := S512x256) (1 : Fin 2) _ _ _ (ix2 p (⟨256 + q.val, by omega⟩ : Fin 512)) rfl rfl (ix2 p q)
    (fun b hb => by match b with | ⟨0, _⟩ => rfl | ⟨1, _⟩ => exact absurd rfl hb)
    (by show q.val + 256 = 256 + q.val; omega)).trans ?_
  refine (Cert.PlainDot.matmul_zero_apply plain_feature rfl rfl none _ _ p q).trans ?_
  refine Finset.sum_congr rfl fun κ _ => ?_
  rw [shapeCast_self]
  rfl

/-! ## The windows' blocks over the grid -/

theorem offsets_zero : (![0, 0] : Fin 2 → Nat) = fun _ => 0 := funext fun a => by fin_cases a <;> rfl

/-- The printed index maps, decided over the eight points: the two row-blocked inputs and the output sit at row
    block `t`, column block 0; the two weight arrays are read whole. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- Block `t` of the first row-blocked input is rows 512 t .. 512 t + 511 of its array. -/
theorem rows0 (c : Dev nD) (t : Fin cfg0.N) (p : Fin 512) (κ : Fin 256) (r : Fin 4096) (hr : r.val = t.val * 512 + p.val) :
    iblk0 (F := Ideal) V c 0 t (ix2 p κ) = V c main_arg0 (ix2 r κ) := by
  obtain ⟨e0, e1, -⟩ := block_indices t
  show V c main_arg0 (((cfg0.win 0).blk t).view.emb (ix2 p κ)) = V c main_arg0 (ix2 r κ)
  congr 1
  funext a; apply Fin.ext
  match a with
  | ⟨0, _⟩ => show win0_0.index t (0 : Fin 2) * 512 + 1 * p.val = r.val; omega
  | ⟨1, _⟩ => show win0_0.index t (1 : Fin 2) * 256 + 1 * κ.val = κ.val; omega

/-- Block `t` of the second row-blocked input is rows 512 t .. 512 t + 511 of its array. -/
theorem rows1 (c : Dev nD) (t : Fin cfg0.N) (p : Fin 512) (κ : Fin 256) (r : Fin 4096) (hr : r.val = t.val * 512 + p.val) :
    iblk0 (F := Ideal) V c 1 t (ix2 p κ) = V c main_arg1 (ix2 r κ) := by
  obtain ⟨-, -, e0, e1, -⟩ := block_indices t
  show V c main_arg1 (((cfg0.win 1).blk t).view.emb (ix2 p κ)) = V c main_arg1 (ix2 r κ)
  congr 1
  funext a; apply Fin.ext
  match a with
  | ⟨0, _⟩ => show win0_1.index t (0 : Fin 2) * 512 + 1 * p.val = r.val; omega
  | ⟨1, _⟩ => show win0_1.index t (1 : Fin 2) * 256 + 1 * κ.val = κ.val; omega

/-- The first weight window's block is its whole array at every point. -/
theorem whole2 (c : Dev nD) (t : Fin cfg0.N) (κ q : Fin 256) :
    iblk0 (F := Ideal) V c 2 t (ix2 κ q) = V c main_v0 (ix2 κ q) := by
  obtain ⟨-, -, -, -, e0, e1, -⟩ := block_indices t
  show V c main_v0 (((cfg0.win 2).blk t).view.emb (ix2 κ q)) = V c main_v0 (ix2 κ q)
  congr 1
  funext a; apply Fin.ext
  match a with
  | ⟨0, _⟩ => show win0_2.index t (0 : Fin 2) * 256 + 1 * κ.val = κ.val; omega
  | ⟨1, _⟩ => show win0_2.index t (1 : Fin 2) * 256 + 1 * q.val = q.val; omega

/-- The second weight window's block is its whole array at every point. -/
theorem whole3 (c : Dev nD) (t : Fin cfg0.N) (κ q : Fin 256) :
    iblk0 (F := Ideal) V c 3 t (ix2 κ q) = V c main_v1 (ix2 κ q) := by
  obtain ⟨-, -, -, -, -, -, e0, e1, -⟩ := block_indices t
  show V c main_v1 (((cfg0.win 3).blk t).view.emb (ix2 κ q)) = V c main_v1 (ix2 κ q)
  congr 1
  funext a; apply Fin.ext
  match a with
  | ⟨0, _⟩ => show win0_3.index t (0 : Fin 2) * 256 + 1 * κ.val = κ.val; omega
  | ⟨1, _⟩ => show win0_3.index t (1 : Fin 2) * 256 + 1 * q.val = q.val; omega

/-- Entry (p, q') of the output's block `t` is entry (512 t + p, q') of the array. -/
theorem out_entry (t : Fin cfg0.N) (p q' : Fin 512) (r : Fin 4096) (hr : r.val = t.val * 512 + p.val) :
    ((cfg0.win 4).blk t).view.emb (ix2 p q') = (ix2 r q' : S4096x512.Idx) := by
  obtain ⟨-, -, -, -, -, -, -, -, e0, e1⟩ := block_indices t
  funext a; apply Fin.ext
  match a with
  | ⟨0, _⟩ => show win0_4.index t (0 : Fin 2) * 512 + 1 * p.val = r.val; omega
  | ⟨1, _⟩ => show win0_4.index t (1 : Fin 2) * 512 + 1 * q'.val = q'.val; omega

/-! ## What a point writes back -/

theorem left_col (q : Fin 256) : q.val < 512 := by have := q.isLt; omega
theorem right_col (q : Fin 256) : 256 + q.val < 512 := by have := q.isLt; omega

/-- Point `t` writes back block `t` of the feature transform of the arrays the region is entered with. -/
theorem flushed_eq (c : Dev nD) (t : Fin cfg0.N) :
    (dat0 (F := Ideal) V c).flushed 4 t
      = ((cfg0.win 4).blk t).view.read (Elt Ideal) (Cert.GC.inner (V c main_arg0) (V c main_arg1) (V c main_v0) (V c main_v1)) := by
  show (cfg0.win 4).cut (grid0.coords t) ((dat0 V c).after 4 t) = _
  rw [after0_4]
  unfold out0_4
  rw [View.canon_unit_zero offsets_zero]
  simp only [View.ld_unit_zero (S := S512x256) offsets_zero, View.ld_unit_zero (S := S256x256) offsets_zero]
  refine funext fun (j : S512x512.Idx) => ?_
  obtain ⟨p, q', rfl⟩ : ∃ (p : Fin 512) (q' : Fin 512), j = ix2 p q' := ⟨j 0, j 1, eq_ix2 j⟩
  have ht : t.val < 8 := t.isLt
  have hrow : t.val * 512 + p.val < 4096 := by have := p.isLt; omega
  show k0_pay1 (F := Ideal) (iblk0 V c 0 t) (iblk0 V c 1 t) (iblk0 V c 2 t) (iblk0 V c 3 t) (ix2 p q')
    = Cert.GC.inner (V c main_arg0) (V c main_arg1) (V c main_v0) (V c main_v1) (((cfg0.win 4).blk t).view.emb (ix2 p q'))
  rw [out_entry t p q' ⟨t.val * 512 + p.val, hrow⟩ rfl]
  by_cases hq : q'.val < 256
  · obtain ⟨q, rfl⟩ : ∃ q : Fin 256, q' = (⟨q.val, left_col q⟩ : Fin 512) := ⟨⟨q'.val, hq⟩, rfl⟩
    rw [Cert.GC.inner_left]
    refine (pay_left _ _ _ _ p q).trans ?_
    unfold Cert.GC.innerM
    refine Finset.sum_congr rfl fun κ _ => ?_
    rw [rows0 V c t p κ ⟨t.val * 512 + p.val, hrow⟩ rfl, rows1 V c t p κ ⟨t.val * 512 + p.val, hrow⟩ rfl, whole2 V c t κ q]
  · obtain ⟨q, rfl⟩ : ∃ q : Fin 256, q' = (⟨256 + q.val, right_col q⟩ : Fin 512) :=
      ⟨⟨q'.val - 256, by have := q'.isLt; omega⟩, Fin.ext (by show q'.val = 256 + (q'.val - 256); omega)⟩
    rw [Cert.GC.inner_right]
    refine (pay_right _ _ _ _ p q).trans ?_
    unfold Cert.GC.innerS
    refine Finset.sum_congr rfl fun κ _ => ?_
    rw [rows1 V c t p κ ⟨t.val * 512 + p.val, hrow⟩ rfl, whole3 V c t κ q]

/-! ## From the blocks to the array -/

/-- An index of the array is in point `t`'s block iff each coordinate is in the block's range on its axis. -/
theorem mem_blk (t : Fin cfg0.N) (i : S4096x512.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v2).slice (win0_4.rect t)).set ↔ _
  rw [View.set_slice_whole, Rect.mem_set_unit]
  exact Iff.rfl

/-- Row r of the array lies in the block of point r / 512: the eight blocks cover the array. -/
theorem cover (i : S4096x512.Idx) : ∃ t : Fin cfg0.N, (cfg0.win 4).flush t = true ∧ i ∈ ((cfg0.win 4).blk t).view.set := by
  have hi0 : (i 0).val < 4096 := (i 0).isLt
  have hi1 : (i 1).val < 512 := (i 1).isLt
  have hN : cfg0.N = 8 := rfl
  refine ⟨⟨(i 0).val / 512, by rw [hN]; omega⟩, flush0_4 _, ?_⟩
  rw [mem_blk]
  obtain ⟨-, -, -, -, -, -, -, -, e0, e1⟩ := block_indices ⟨(i 0).val / 512, by rw [hN]; omega⟩
  intro a
  match a with
  | ⟨0, _⟩ =>
    show win0_4.index _ (0 : Fin 2) * 512 ≤ (i 0).val ∧ (i 0).val < win0_4.index _ (0 : Fin 2) * 512 + 512
    rw [e0]; show (i 0).val / 512 * 512 ≤ (i 0).val ∧ (i 0).val < (i 0).val / 512 * 512 + 512; omega
  | ⟨1, _⟩ =>
    show win0_4.index _ (1 : Fin 2) * 512 ≤ (i 1).val ∧ (i 1).val < win0_4.index _ (1 : Fin 2) * 512 + 512
    rw [e1]; omega

/-- The array region 0 leaves in `main_v2`, whatever contents `V` the region is entered from. -/
theorem arr0 (c : Dev nD) :
    (dat0 (F := Ideal) V c).arrAt 4 cfg0.N = Cert.GC.inner (V c main_arg0) (V c main_arg1) (V c main_v0) (V c main_v1) :=
  (dat0 (F := Ideal) V c).arrAt_eq_of_cover 4 _ (fun t _ => flushed_eq V c t) cover

end Cert.KernelIdeal.Hand

end
-- ==== Proof.KVal1.lean ====
/-
  The kernel's aggregation region: each of the two 4096 × 256 arrays it leaves is the whole-sum aggregation of its
  adjacency array with one half of the 4096 × 512 array it reads.

  At a grid point t (of eight) the body reads rows 512 t … 512 t + 511 of each adjacency array and the whole
  4096 × 512 array, takes columns 0 … 255 (respectively 256 … 511) of the latter, and multiplies: entry (p, q) of
  what it leaves for the first output is  ∑ k < 4096, adj1 (512 t + p, k) · inn (k, q),  for the second
  ∑ k < 4096, adj2 (512 t + p, k) · inn (k, 256 + q).  Point t writes rows 512 t … 512 t + 511 of each output, so
  row r is written by point r / 512 and the eight blocks cover the 4096 rows.
-/
import proofs.«153760_g2000202054435738_pallasbulk_107_3_alg».proof.Proof.Gen.KernelIdeal.Frame
import proofs.«153760_g2000202054435738_pallasbulk_107_3_alg».proof.Proof.Spec
import proofs.«153760_g2000202054435738_pallasbulk_107_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The body's two products at an entry -/

/-- The dimension numbers of the body's matrix products are the plain ones: rows from the left, columns from the
    right, one contracted axis. -/
theorem plain_agg : Cert.PlainDot.Plain dot_S512x4096_S4096x256_S512x256_1_0_0_1_n_n :=
  ⟨rfl, rfl, rfl, rfl, rfl, rfl⟩

/-- The first product at (p, q): row p of the adjacency block against column q of the array read. -/
theorem pay_mean_apply (x0 : Vec Ideal S512x4096 .f32) (x2 : Vec Ideal S4096x512 .bf16) (p : Fin 512) (q : Fin 256) :
    k1_pay2 x0 x2 (ix2 p q) = ∑ k : Fin 4096, x0 (ix2 p k) * x2 (ix2 k (⟨q.val, by omega⟩ : Fin 512)) := by
  unfold k1_pay2 k1_pay1
  rw [Cert.PlainDot.matmul_zero_apply plain_agg rfl rfl]
  refine Finset.sum_congr rfl fun k _ => ?_
  rw [truncf_apply, shapeCast_self]
  congr 1
  exact extractStridedSlice_apply _ _ _ _ _ (fun a => by
    match a with
    | ⟨0, _⟩ => show k.val = 0 + k.val; omega
    | ⟨1, _⟩ => show q.val = 0 + q.val; omega)

/-- The second product at (p, q): row p of the adjacency block against column 256 + q of the array read. -/
theorem pay_var_apply (x1 : Vec Ideal S512x4096 .f32) (x2 : Vec Ideal S4096x512 .bf16) (p : Fin 512) (q : Fin 256) :
    k1_pay3 x1 x2 (ix2 p q) = ∑ k : Fin 4096, x1 (ix2 p k) * x2 (ix2 k (⟨256 + q.val, by omega⟩ : Fin 512)) := by
  unfold k1_pay3 k1_pay1
  rw [Cert.PlainDot.matmul_zero_apply plain_agg rfl rfl]
  refine Finset.sum_congr rfl fun k _ => ?_
  rw [truncf_apply, shapeCast_self]
  congr 1
  exact extractStridedSlice_apply _ _ _ _ _ (fun a => by
    match a with
    | ⟨0, _⟩ => show k.val = 0 + k.val; omega
    | ⟨1, _⟩ => show 256 + q.val = 256 + q.val; rfl)

variable (V : (c : Dev nD) → (b : Ref sig .tc) → Buf (Elt Ideal) ((c : Thread nD τ).loc b))

/-! ## The windows over the grid -/

theorem origin2 : (![0, 0] : Fin 2 → Nat) = fun _ => 0 := funext fun a => by fin_cases a <;> rfl

/-- The printed index maps, decided over the eight points: the adjacency windows' row block is the output windows'
    row block, every column block is block 0, the array read whole sits at block (0, 0), and the row block of point t
    is t. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-! ## The first output: the aggregation over columns 0 … 255 -/

/-- What point t writes back for the first output is block t of the whole-sum aggregation: the body's product
    read at (p, q), each adjacency entry at row 512 t + p and each entry of the array read where it lies. -/
theorem flushed_mean (c : Dev nD) (t : Fin cfg1.N) :
    (dat1 (F := Ideal) V c).flushed 3 t
      = ((cfg1.win 3).blk t).view.read (Elt Ideal) (Cert.GC.aggM (V c main_arg4) (V c main_v2)) := by
  show (cfg1.win 3).cut (grid1.coords t) ((dat1 (F := Ideal) V c).after 3 t) = _
  rw [after1_3]
  unfold out1_3
  rw [View.canon_unit_zero origin2]
  simp only [View.ld_unit_zero (S := S512x4096) origin2, View.ld_unit_zero (S := S4096x512) origin2]
  funext j
  obtain ⟨p, q, rfl⟩ : ∃ (p : Fin 512) (q : Fin 256), j = ix2 p q := ⟨j 0, j 1, eq_ix2 j⟩
  show k1_pay2 (iblk1 V c 0 t) (iblk1 V c 2 t) (ix2 p q)
      = Cert.GC.aggM (V c main_arg4) (V c main_v2) (((cfg1.win 3).blk t).view.emb (ix2 p q))
  rw [pay_mean_apply]
  obtain ⟨e00, e01, e10, e11, e20, e21, e30, e31, e40, e41⟩ := idx_facts t
  show _ = ∑ k : Fin 4096, Cert.GC.termM (V c main_arg4) (V c main_v2) _ _ k
  refine Finset.sum_congr rfl fun k _ => ?_
  unfold Cert.GC.termM
  refine congrArg₂ (· * ·) ?_ ?_
  · show V c main_arg4 (((cfg1.win 0).blk t).view.emb (ix2 p k)) = _
    refine congrArg (V c main_arg4) (funext fun a => Fin.ext ?_)
    match a with
    | ⟨0, _⟩ =>
      show win1_0.index t (0 : Fin 2) * 512 + 1 * p.val = win1_3.index t (0 : Fin 2) * 512 + 1 * p.val
      omega
    | ⟨1, _⟩ =>
      show win1_0.index t (1 : Fin 2) * 4096 + 1 * k.val = k.val
      omega
  · show V c main_v2 (((cfg1.win 2).blk t).view.emb (ix2 k (⟨q.val, by omega⟩ : Fin 512))) = _
    refine congrArg (V c main_v2) (funext fun a => Fin.ext ?_)
    match a with
    | ⟨0, _⟩ =>
      show win1_2.index t (0 : Fin 2) * 4096 + 1 * k.val = k.val
      omega
    | ⟨1, _⟩ =>
      show win1_2.index t (1 : Fin 2) * 512 + 1 * q.val = win1_3.index t (1 : Fin 2) * 256 + 1 * q.val
      omega

/-- An index of the first output is in point t's block iff each coordinate is in the block's range on its axis. -/
theorem mem_blk_mean (t : Fin cfg1.N) (i : S4096x256.Idx) :
    i ∈ ((cfg1.win 3).blk t).view.set ↔ ∀ a : Fin 2, win1_3.index t a * S512x256.size a ≤ (i a).val
      ∧ (i a).val < win1_3.index t a * S512x256.size a + S512x256.size a := by
  show i ∈ ((View.whole main_v3_0).slice (win1_3.rect t)).set ↔ _
  rw [View.set_slice_whole, Rect.mem_set_unit]
  exact Iff.rfl

/-- Row r of the first output is written by point r / 512: the eight blocks cover the array. -/
theorem cover_mean (i : S4096x256.Idx) :
    ∃ t : Fin cfg1.N, (cfg1.win 3).flush t = true ∧ i ∈ ((cfg1.win 3).blk t).view.set := by
  have hi0 : (i 0).val < 4096 := (i 0).isLt
  have hi1 : (i 1).val < 256 := (i 1).isLt
  obtain ⟨t, ht⟩ : ∃ t : Fin cfg1.N, t.val = (i 0).val / 512 :=
    ⟨⟨(i 0).val / 512, by have := N_1; show (i 0).val / 512 < grid1.N; omega⟩, rfl⟩
  obtain ⟨-, -, -, -, -, -, e30, e31, -, -⟩ := idx_facts t
  refine ⟨t, flush1_3 t, ?_⟩
  rw [mem_blk_mean]
  intro a
  match a with
  | ⟨0, _⟩ =>
    show win1_3.index t (0 : Fin 2) * 512 ≤ (i 0).val ∧ (i 0).val < win1_3.index t (0 : Fin 2) * 512 + 512
    omega
  | ⟨1, _⟩ =>
    show win1_3.index t (1 : Fin 2) * 256 ≤ (i 1).val ∧ (i 1).val < win1_3.index t (1 : Fin 2) * 256 + 256
    omega

/-- The array region 1 leaves in `main_v3_0`. -/
theorem arr1M (c : Dev nD) :
    (dat1 (F := Ideal) V c).arrAt 3 cfg1.N = Cert.GC.aggM (V c main_arg4) (V c main_v2) :=
  (dat1 (F := Ideal) V c).arrAt_eq_of_cover 3 (Cert.GC.aggM (V c main_arg4) (V c main_v2))
    (fun t _ => flushed_mean V c t) cover_mean

/-! ## The second output: the aggregation over columns 256 … 511 -/

/-- What point t writes back for the second output is block t of the whole-sum aggregation over the right half:
    the body's product read at (p, q), each adjacency entry at row 512 t + p and each entry of the array read at
    column 256 + q. -/
theorem flushed_var (c : Dev nD) (t : Fin cfg1.N) :
    (dat1 (F := Ideal) V c).flushed 4 t
      = ((cfg1.win 4).blk t).view.read (Elt Ideal) (Cert.GC.aggS (V c main_arg5) (V c main_v2)) := by
  show (cfg1.win 4).cut (grid1.coords t) ((dat1 (F := Ideal) V c).after 4 t) = _
  rw [after1_4]
  unfold out1_4
  rw [View.canon_unit_zero origin2]
  simp only [View.ld_unit_zero (S := S512x4096) origin2, View.ld_unit_zero (S := S4096x512) origin2]
  funext j
  obtain ⟨p, q, rfl⟩ : ∃ (p : Fin 512) (q : Fin 256), j = ix2 p q := ⟨j 0, j 1, eq_ix2 j⟩
  show k1_pay3 (iblk1 V c 1 t) (iblk1 V c 2 t) (ix2 p q)
      = Cert.GC.aggS (V c main_arg5) (V c main_v2) (((cfg1.win 4).blk t).view.emb (ix2 p q))
  rw [pay_var_apply]
  obtain ⟨e00, e01, e10, e11, e20, e21, e30, e31, e40, e41⟩ := idx_facts t
  show _ = ∑ k : Fin 4096, Cert.GC.termS (V c main_arg5) (V c main_v2) _ _ k
  refine Finset.sum_congr rfl fun k _ => ?_
  unfold Cert.GC.termS
  refine congrArg₂ (· * ·) ?_ ?_
  · show V c main_arg5 (((cfg1.win 1).blk t).view.emb (ix2 p k)) = _
    refine congrArg (V c main_arg5) (funext fun a => Fin.ext ?_)
    match a with
    | ⟨0, _⟩ =>
      show win1_1.index t (0 : Fin 2) * 512 + 1 * p.val = win1_4.index t (0 : Fin 2) * 512 + 1 * p.val
      omega
    | ⟨1, _⟩ =>
      show win1_1.index t (1 : Fin 2) * 4096 + 1 * k.val = k.val
      omega
  · show V c main_v2 (((cfg1.win 2).blk t).view.emb (ix2 k (⟨256 + q.val, by omega⟩ : Fin 512))) = _
    refine congrArg (V c main_v2) (funext fun a => Fin.ext ?_)
    match a with
    | ⟨0, _⟩ =>
      show win1_2.index t (0 : Fin 2) * 4096 + 1 * k.val = k.val
      omega
    | ⟨1, _⟩ =>
      show win1_2.index t (1 : Fin 2) * 512 + 1 * (256 + q.val)
        = 256 + (win1_4.index t (1 : Fin 2) * 256 + 1 * q.val)
      omega

/-- An index of the second output is in point t's block iff each coordinate is in the block's range on its axis. -/
theorem mem_blk_var (t : Fin cfg1.N) (i : S4096x256.Idx) :
    i ∈ ((cfg1.win 4).blk t).view.set ↔ ∀ a : Fin 2, win1_4.index t a * S512x256.size a ≤ (i a).val
      ∧ (i a).val < win1_4.index t a * S512x256.size a + S512x256.size a := by
  show i ∈ ((View.whole main_v3_1).slice (win1_4.rect t)).set ↔ _
  rw [View.set_slice_whole, Rect.mem_set_unit]
  exact Iff.rfl

/-- Row r of the second output is written by point r / 512: the eight blocks cover the array. -/
theorem cover_var (i : S4096x256.Idx) :
    ∃ t : Fin cfg1.N, (cfg1.win 4).flush t = true ∧ i ∈ ((cfg1.win 4).blk t).view.set := by
  have hi0 : (i 0).val < 4096 := (i 0).isLt
  have hi1 : (i 1).val < 256 := (i 1).isLt
  obtain ⟨t, ht⟩ : ∃ t : Fin cfg1.N, t.val = (i 0).val / 512 :=
    ⟨⟨(i 0).val / 512, by have := N_1; show (i 0).val / 512 < grid1.N; omega⟩, rfl⟩
  obtain ⟨-, -, -, -, -, -, -, -, e40, e41⟩ := idx_facts t
  refine ⟨t, flush1_4 t, ?_⟩
  rw [mem_blk_var]
  intro a
  match a with
  | ⟨0, _⟩ =>
    show win1_4.index t (0 : Fin 2) * 512 ≤ (i 0).val ∧ (i 0).val < win1_4.index t (0 : Fin 2) * 512 + 512
    omega
  | ⟨1, _⟩ =>
    show win1_4.index t (1 : Fin 2) * 256 ≤ (i 1).val ∧ (i 1).val < win1_4.index t (1 : Fin 2) * 256 + 256
    omega

/-- The array region 1 leaves in `main_v3_1`. -/
theorem arr1S (c : Dev nD) :
    (dat1 (F := Ideal) V c).arrAt 4 cfg1.N = Cert.GC.aggS (V c main_arg5) (V c main_v2) :=
  (dat1 (F := Ideal) V c).arrAt_eq_of_cover 4 (Cert.GC.aggS (V c main_arg5) (V c main_v2))
    (fun t _ => flushed_var V c t) cover_var

end Cert.KernelIdeal.Hand

end
-- ==== Proof.KValue.lean ====
/-
  The kernel's whole run read as values: the two result arrays are the whole-sum aggregations of the two adjacency
  arrays with the feature transform of the other four arguments; every argument ends as launched.

  The buffer contents at the segment boundaries are a fold from the launch memory: the host stretch converts the two
  weight arrays to the narrow format (the identity on extended reals), the first region leaves the feature array,
  the second reads it whole and leaves the two results.
-/
import proofs.«153760_g2000202054435738_pallasbulk_107_3_alg».proof.Proof.KRun
import proofs.«153760_g2000202054435738_pallasbulk_107_3_alg».proof.Proof.KVal0
import proofs.«153760_g2000202054435738_pallasbulk_107_3_alg».proof.Proof.KVal1
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The mean result, as a function of the launch memory on core `c`. -/
def resM (c : Dev nD) : Cert.GC.A4096x256.Idx → EReal :=
  Cert.GC.aggM (m ((c.tc : Thread nD τ).loc main_arg4))
    (Cert.GC.inner (m ((c.tc : Thread nD τ).loc main_arg0)) (m ((c.tc : Thread nD τ).loc main_arg1))
      (m ((c.tc : Thread nD τ).loc main_arg2)) (m ((c.tc : Thread nD τ).loc main_arg3)))

/-- The variance result, as a function of the launch memory on core `c`. -/
def resS (c : Dev nD) : Cert.GC.A4096x256.Idx → EReal :=
  Cert.GC.aggS (m ((c.tc : Thread nD τ).loc main_arg5))
    (Cert.GC.inner (m ((c.tc : Thread nD τ).loc main_arg0)) (m ((c.tc : Thread nD τ).loc main_arg1))
      (m ((c.tc : Thread nD τ).loc main_arg2)) (m ((c.tc : Thread nD τ).loc main_arg3)))

/-! ## The boundary contents, one step at a time -/

/-- The host stretch writes only the two converted weight arrays; any other buffer is as launched. -/
theorem W1_arg0 (c : Dev nD) : V1 m ρ c main_arg0 = m ((c.tc : Thread nD τ).loc main_arg0) :=
  (StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))).trans rfl

theorem W1_arg1 (c : Dev nD) : V1 m ρ c main_arg1 = m ((c.tc : Thread nD τ).loc main_arg1) :=
  (StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))).trans rfl

/-- The first converted weight array is the third argument: the conversion is the identity on extended reals. -/
theorem W1_v0 (c : Dev nD) :
    (V1 m ρ c main_v0 : Cert.GC.A256x256.Idx → EReal) = m ((c.tc : Thread nD τ).loc main_arg2) := by
  show StableHlo.after hostOps0 _ (Proc.devRef .tc main_v0) = _
  after_results
  exact funext fun i => rfl

/-- The second converted weight array is the fourth argument. -/
theorem W1_v1 (c : Dev nD) :
    (V1 m ρ c main_v1 : Cert.GC.A256x256.Idx → EReal) = m ((c.tc : Thread nD τ).loc main_arg3) := by
  show StableHlo.after hostOps0 _ (Proc.devRef .tc main_v1) = _
  after_results
  exact funext fun i => rfl

/-- The first region leaves the feature transform of the first four arguments in the feature array. -/
theorem W2_v2 (c : Dev nD) :
    V2 m ρ c main_v2 = Cert.GC.inner (m ((c.tc : Thread nD τ).loc main_arg0)) (m ((c.tc : Thread nD τ).loc main_arg1))
      (m ((c.tc : Thread nD τ).loc main_arg2)) (m ((c.tc : Thread nD τ).loc main_arg3)) := by
  refine (W2_arr m ρ c 4).trans ?_
  rw [arr0 (V1 m ρ) c, W1_arg0, W1_arg1, W1_v0, W1_v1]

/-- Neither the host stretch nor the first region writes an adjacency array. -/
theorem W2_arg4 (c : Dev nD) : V2 m ρ c main_arg4 = m ((c.tc : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.unary_writes, Finset.mem_singleton]
          repeat' apply And.intro
          all_goals exact StableHlo.devRef_ne_of_ne (by decide)))
    _ = m ((c.tc : Thread nD τ).loc main_arg4) := rfl

theorem W2_arg5 (c : Dev nD) : V2 m ρ c main_arg5 = m ((c.tc : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.unary_writes, Finset.mem_singleton]
          repeat' apply And.intro
          all_goals exact StableHlo.devRef_ne_of_ne (by decide)))
    _ = m ((c.tc : Thread nD τ).loc main_arg5) := rfl

/-- The last boundary's contents at the first result. -/
theorem W3_v3_0 (c : Dev nD) : W3 m ρ c (Proc.devRef .tc main_v3_0) = resM m c := by
  refine (W3_arr m ρ c 3).trans ?_
  rw [arr1M (V2 m ρ) c, W2_arg4, W2_v2]
  rfl

/-- The last boundary's contents at the second result. -/
theorem W3_v3_1 (c : Dev nD) : W3 m ρ c (Proc.devRef .tc main_v3_1) = resS m c := by
  refine (W3_arr m ρ c 4).trans ?_
  rw [arr1S (V2 m ρ) c, W2_arg5, W2_v2]
  rfl

/-- The kernel's run with both results at their values and every argument as launched. -/
theorem run_value : θ_run (defs (F := Ideal)) (onTc (τ := τ) (main (F := Ideal))) ⟨m, fun _ => 0, ρ⟩ (fun r => ∀ c : Dev nD,
      r.2.mem ((c.tc : Thread nD τ).loc main_v3_0) = resM m c
      ∧ r.2.mem ((c.tc : Thread nD τ).loc main_v3_1) = resS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => ⟨(h c).1.trans (W3_v3_0 m ρ c), (h c).2.1.trans (W3_v3_1 m ρ c), (h c).2.2⟩)
    (Cert.KernelIdeal.Named.run_named (F := Ideal) m ρ)

end Cert.KernelIdeal.Hand

end
-- ==== Proof.RDat0.lean ====
/-
  The reference's feature-transform region (pipeline 0), at any contents V of the core's buffers on entry: the
  block each window shows the body at a grid point, what the body's one store leaves in the output window's
  buffer (its payload over the four input blocks), and the pipeline's proof data built from them.
-/
import proofs.«153760_g2000202054435738_pallasbulk_107_3_alg».proof.Proof.Gen.ReferenceIdeal.Launch
import proofs.«153760_g2000202054435738_pallasbulk_107_3_alg».proof.Proof.Gen.ReferenceIdeal.Skeleton
import proofs.«153760_g2000202054435738_pallasbulk_107_3_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- When the body runs at a point, input window 0's buffer holds the window's block there: where the block was just fetched it is
    the block; where it was not, the block index has not moved since the last fetch and the body leaves the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- When the body runs at a point, input window 1's buffer holds the window's block there: where the block was just fetched it is
    the block; where it was not, the block index has not moved since the last fetch and the body leaves the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- When the body runs at a point, input window 2's buffer holds the window's block there: where the block was just fetched it is
    the block; where it was not, the block index has not moved since the last fetch and the body leaves the buffer as it found it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- When the body runs at a point, input window 3's buffer holds the window's block there: where the block was just fetched it is
    the block; where it was not, the block index has not moved since the last fetch and the body leaves the buffer as it found it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x256 := Rect.unit (s := S512x256) ![0, 0] S512x256.size inb_S512x256_S512x256_0_0
abbrev r0_1 : Rect S256x256 := Rect.unit (s := S256x256) ![0, 0] S256x256.size inb_S256x256_S256x256_0_0
abbrev r0_2 : Rect S512x512 := Rect.unit (s := S512x512) ![0, 0] S512x512.size inb_S512x512_S512x512_0_0

/-! ## What the body leaves in each output window's buffer -/

/-- The output window's buffer after the body, from the four input blocks: the body's one store, of its payload, over the whole buffer. -/
def out0_4 (x0 : Vec F S512x256 .f32) (x1 : Vec F S512x256 .f32) (x2 : Vec F S256x256 .f32) (x3 : Vec F S256x256 .f32) : Vec F S512x512 .f32 :=
  View.canon [⟨r0_2, k0_pay1 (View.ld x0 r0_0) (View.ld x1 r0_0) (View.ld x2 r0_1) (View.ld x3 r0_1)⟩]

/-- That store covers the buffer. -/
theorem cover0_4 (p0 : Vec F S512x512 .f32) (y : S512x512.Idx) :
    ∃ pc ∈ ([⟨r0_2, p0⟩] : List (View.Piece (Elt F) S512x512 .f32)), y ∈ pc.1.set :=
  View.cover_of_tiled [⟨r0_2, p0⟩] S512x512.size (by rfl) y

/-! ## The pipeline's proof data -/

/-- The proof data of pipeline 0 on core `c`: the arrays as the region finds them; after the body at point `t` each
    input's buffer still at its block and the output's at the payload of the four input blocks; the invariant carries the
    core's other scoped buffers and its generator register through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's buffer holds its block when the body runs, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Cert.ReferenceIdeal.Hand

end
-- ==== Proof.RBody0.lean ====
/-
  The reference's feature-transform region (pipeline 0): the kernel body run on whole staging buffers — the four
  inputs at their blocks, the output at anything — ends with the inputs as they were and the output buffer at the
  body's payload; hence the pipeline's body obligation at every grid point.
-/
import proofs.«153760_g2000202054435738_pallasbulk_107_3_alg».proof.Proof.RDat0

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's triple -/

set_option maxHeartbeats 1000000 in
/-- The kernel body on whole buffers — the four inputs at contents `x0 … x3`, the output at anything — runs to the
    continuation with the inputs as they were and the output at the payload of `x0 … x3`: its five loads and one store
    are run in order, and the store covers the output buffer. -/
theorem sound_kernel0 (c : Dev nD) (E : Set ℕ) (i : grid0.Coords) (arg1 : Memref sig .tc .vmem S512x256 .f32) (harg1 : arg1.IsWhole) (arg2 : Memref sig .tc .vmem S512x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S512x512 .f32) (harg5 : arg5.IsWhole)
    (x0 : Vec F S512x256 .f32) (x1 : Vec F S512x256 .f32) (x2 : Vec F S256x256 .f32) (x3 : Vec F S256x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__feature_transform_kernel i arg1 harg1 arg2 harg2 arg3 harg3 arg4 harg4 arg5 harg5) K := by
  simp only [cc0__feature_transform_kernel_eq_skeleton]; unfold cc0__feature_transform_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the run above applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.Hand

end
-- ==== Proof.RDat1.lean ====
/-
  The reference's aggregation region (pipeline 1, grid 16 × 8: row panel i, contraction block k), at any contents V
  of the core's buffers on entry.

  The body keeps two 256 × 256 accumulators in scratch. At a point it first clears them if k = 0, then adds onto
  each the product of its adjacency block with its half of the feature block (`step1`), and if k = 7 copies the
  two accumulators side by side into the output window's buffer (`outBlk1`). So the accumulators after point n
  (`scAt1`) are one step from zero at the first point of a row panel, and one step from what the point before
  left otherwise. The pipeline's proof data carry the accumulators from point to point in the region invariant.
-/
import proofs.«153760_g2000202054435738_pallasbulk_107_3_alg».proof.Proof.Gen.ReferenceIdeal.Launch
import proofs.«153760_g2000202054435738_pallasbulk_107_3_alg».proof.Proof.Gen.ReferenceIdeal.Skeleton
import proofs.«153760_g2000202054435738_pallasbulk_107_3_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point (each is fetched at every point, uncut, never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two accumulators -/

/-- Both accumulators cleared. -/
def zero1 : Vec F S256x256 .f32 × Vec F S256x256 .f32 := (k1_pay1 (F := F), k1_pay2 (F := F))

/-- One point's update: onto each accumulator the product of its adjacency block with its half of the feature block. -/
def step1 (a1 a2 : Vec F S256x512 .f32) (inn : Vec F S512x512 .f32) (s : Vec F S256x256 .f32 × Vec F S256x256 .f32) :
    Vec F S256x256 .f32 × Vec F S256x256 .f32 :=
  (k1_pay4 inn s.1 a1, k1_pay5 inn s.2 a2)

/-- The accumulators after the body at position `n`: one step from zero at a row panel's first point, else one step from
    what the point before left. -/
def scAt1 (c : Dev nD) : (n : ℕ) → n < cfg1.N → Vec F S256x256 .f32 × Vec F S256x256 .f32
  | 0, hn => step1 (iblk1 V c 0 ⟨0, hn⟩) (iblk1 V c 1 ⟨0, hn⟩) (iblk1 V c 2 ⟨0, hn⟩) zero1
  | n + 1, hn => step1 (iblk1 V c 0 ⟨n + 1, hn⟩) (iblk1 V c 1 ⟨n + 1, hn⟩) (iblk1 V c 2 ⟨n + 1, hn⟩)
      (if (n + 1) % 8 = 0 then zero1 else scAt1 c n (Nat.lt_of_succ_lt hn))

/-- At a row panel's first point. -/
theorem scAt1_first (c : Dev nD) (t : Fin cfg1.N) (h : t.val % 8 = 0) :
    scAt1 V c t.val t.isLt = step1 (iblk1 V c 0 t) (iblk1 V c 1 t) (iblk1 V c 2 t) zero1 := by
  obtain ⟨n, hn⟩ := t
  cases n with
  | zero => rfl
  | succ n => exact congrArg _ (if_pos h)

/-- At any other point. -/
theorem scAt1_next (c : Dev nD) (t : Fin cfg1.N) (h : ¬ t.val % 8 = 0) :
    scAt1 V c t.val t.isLt = step1 (iblk1 V c 0 t) (iblk1 V c 1 t) (iblk1 V c 2 t)
      (scAt1 V c (t.val - 1) (Nat.lt_of_le_of_lt (Nat.sub_le _ _) t.isLt)) := by
  obtain ⟨n, hn⟩ := t
  cases n with
  | zero => exact absurd (Nat.zero_mod _) h
  | succ n => exact congrArg _ (if_neg h)

/-! ## The output window's buffer -/

abbrev r1A : Rect S256x512 := Rect.unit (s := S256x512) ![0, 0] S256x256.size inb_S256x512_S256x256_0_0
abbrev r1B : Rect S256x512 := Rect.unit (s := S256x512) ![0, 256] S256x256.size inb_S256x512_S256x256_0_256

/-- The two accumulators side by side: the first in columns 0..255, the second in columns 256..511 (the two stores as pieces, last first). -/
def outBlk1 (s : Vec F S256x256 .f32 × Vec F S256x256 .f32) : Vec F S256x512 .f32 :=
  View.canon [⟨r1B, s.2⟩, ⟨r1A, s.1⟩]

/-- The two stores tile the buffer. -/
theorem cover1_3 (p1 p0 : Vec F S256x256 .f32) (y : S256x512.Idx) :
    ∃ pc ∈ ([⟨r1B, p1⟩, ⟨r1A, p0⟩] : List (View.Piece (Elt F) S256x512 .f32)), y ∈ pc.1.set :=
  View.cover_of_tiled [⟨r1B, p1⟩, ⟨r1A, p0⟩] S256x256.size (by rfl) y

/-! ## The region invariant and the proof data -/

/-- The two scratch accumulators as whole memrefs. -/
abbrev scM6 : Memref sig .tc .vmem S256x256 .f32 := Memref.whole cc1_scratch0
abbrev scM7 : Memref sig .tc .vmem S256x256 .f32 := Memref.whole cc1_scratch1

/-- The core's other scoped buffers (the first pipeline's staging buffers), each at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The invariant before position `n`: before the first point every scoped buffer outside the pipeline at anything and
    the generator register at some state; afterwards the same with the two accumulators at what the point before left. -/
def PhiS1 (c : Dev nD) : (n : ℕ) → n ≤ cfg1.N → sProp 𝕄
  | 0, _ => Pipeline.ΦA spec1 c
  | n + 1, hn => iprop(others1 (F := F) c ∗ owns (c : Thread nD τ) scM6 fullShare (scAt1 V c n hn).1
      ∗ owns (c : Thread nD τ) scM7 fullShare (scAt1 V c n hn).2 ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 (F := F) c ∗ owns (c : Thread nD τ) scM6 fullShare (scAt1 V c n hn).1
      ∗ owns (c : Thread nD τ) scM7 fullShare (scAt1 V c n hn).2 ∗ (∃ r, prngReg c r)) := rfl

theorem PhiS1_pos (c : Dev nD) (n : ℕ) (h : n ≤ cfg1.N) (hz : n ≠ 0) :
    PhiS1 V c n h = iprop(others1 (F := F) c ∗ owns (c : Thread nD τ) scM6 fullShare (scAt1 V c (n - 1) (by omega)).1
      ∗ owns (c : Thread nD τ) scM7 fullShare (scAt1 V c (n - 1) (by omega)).2 ∗ (∃ r, prngReg c r)) := by
  cases n with
  | zero => exact absurd rfl hz
  | succ n => rfl

/-- The proof data of pipeline 1 on core `c`: the arrays as the region finds them; after the body at point `t` each
    input's buffer at its block and the output's at the two accumulators side by side (consulted only where the block is
    written back, the last point of a row panel); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outBlk1 (scAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outBlk1 (scAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.ReferenceIdeal.Hand

end
-- ==== Proof.RRun.lean ====
/-
  The reference's @main as a run of three segments — the feature-transform region, the aggregation region, and the two
  host slices — from the launch to the return, with every result named.

  The core's buffer contents at each segment boundary form a fold from the launch memory: a region leaves its
  windows' arrays at what its write-backs leave and every other buffer as entered; the host stretch applies its two
  slices. Each argument array, read back through the fold, holds its launch contents; each result array holds the
  fold's last value at it.
-/
import proofs.«153760_g2000202054435738_pallasbulk_107_3_alg».proof.Proof.RBody0
import proofs.«153760_g2000202054435738_pallasbulk_107_3_alg».proof.Proof.RDat1

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (region 0's entry). -/
abbrev W0 : Dev nD → Valuation τ sig (Elt F) := fun c b => (s₀ m ρ).mem ((c : Dev nD), b)
/-- The same read at the TensorCore's references. -/
abbrev VA : (c : Dev nD) → (b : Ref sig .tc) → Buf (Elt F) ((c : Thread nD τ).loc b) := fun c b => W0 m ρ c b
/-- At region 0's exit (region 1's entry): its arrays at what the pipeline leaves, every other buffer as entered. -/
def W1 (c : Dev nD) : Valuation τ sig (Elt F) :=
  Pipeline.withArrays spec0 c (W0 m ρ c) fun w => (dat0 (VA m ρ) c).arrAt w cfg0.N
theorem W1_arr (c : Dev nD) (w : Fin cfg0.W) :
    W1 m ρ c (Proc.devRef .tc (Pipeline.arrRef spec0 w)) = (dat0 (VA m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VB : (c : Dev nD) → (b : Ref sig .tc) → Buf (Elt F) ((c : Thread nD τ).loc b) := fun c b => W1 m ρ c b
theorem hF0 (c : Dev nD) (w : Fin cfg0.W) : (dat0 (VA m ρ) c).arrAt w cfg0.N = VB m ρ c (Pipeline.arrRef spec0 w) :=
  (W1_arr m ρ c w).symm
theorem hrest0 (c : Dev nD) : ∀ b, b ∉ Finset.univ.image (Pipeline.arrRef spec0) → VB m ρ c b = VA m ρ c b :=
  fun b hb => W1_of_ne m ρ c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m ρ c) fun w => (dat1 (VB m ρ) c).arrAt w cfg1.N
theorem W2_arr (c : Dev nD) (w : Fin cfg1.W) :
    W2 m ρ c (Proc.devRef .tc (Pipeline.arrRef spec1 w)) = (dat1 (VB m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev VC : (c : Dev nD) → (b : Ref sig .tc) → Buf (Elt F) ((c : Thread nD τ).loc b) := fun c b => W2 m ρ c b
theorem hF1 (c : Dev nD) (w : Fin cfg1.W) : (dat1 (VB m ρ) c).arrAt w cfg1.N = VC m ρ c (Pipeline.arrRef spec1 w) :=
  (W2_arr m ρ c w).symm
theorem hrest1 (c : Dev nD) : ∀ b, b ∉ Finset.univ.image (Pipeline.arrRef spec1) → VC m ρ c b = VB m ρ c b :=
  fun b hb => W2_of_ne m ρ c b fun w e => hb (Finset.mem_image.mpr ⟨w, Finset.mem_univ _, e⟩)

/-- After the two host slices (the return). -/
abbrev W3 : Dev nD → Valuation τ sig (Elt F) := fun c => StableHlo.after hostOps2 (W2 m ρ c)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := (W1_arr m ρ c 0).trans (((dat0 (VA m ρ) c).arrAt_in 0 rfl _).trans (A_eq0 (VA m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := (W1_arr m ρ c 1).trans (((dat0 (VA m ρ) c).arrAt_in 1 rfl _).trans (A_eq0 (VA m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := (W1_arr m ρ c 2).trans (((dat0 (VA m ρ) c).arrAt_in 2 rfl _).trans (A_eq0 (VA m ρ) c 2))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := (W1_arr m ρ c 3).trans (((dat0 (VA m ρ) c).arrAt_in 3 rfl _).trans (A_eq0 (VA m ρ) c 3))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := (W2_arr m ρ c 0).trans (((dat1 (VB m ρ) c).arrAt_in 0 rfl _).trans (A_eq1 (VB m ρ) c 0))
    _ = W0 m ρ c (Proc.devRef .tc main_arg4) := W1_of_ne m ρ c main_arg4 (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := (W2_arr m ρ c 1).trans (((dat1 (VB m ρ) c).arrAt_in 1 rfl _).trans (A_eq1 (VB m ρ) c 1))
    _ = W0 m ρ c (Proc.devRef .tc main_arg5) := W1_of_ne m ρ c main_arg5 (by decide)
    _ = m ((c : Thread nD τ).loc main_arg5) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m ρ) c
  | ⟨1, _⟩ => fun c => dat1 (VB m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps2_noalloc : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-! ## The regions as segments

The aggregation region's three obligations — the body at every grid point, and the invariant's two ends — enter here as
one hypothesis `hA`, so that the run is assembled independently of their proofs. -/

set_option backward.isDefEq.respectTransparency.types false in
/-- Region 0 over the thread state: entered from every unscoped buffer at `W0`, left at `W1`; its arrays split out of
    the unscoped buffers and put back at the exit contents; the generator register into the region invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VA m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VA m ρ c) (VB m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The aggregation region's three obligations: the body at every grid point, and the invariant's two ends. -/
structure Agg : Prop where
  body : ∀ (V : (c : Dev nD) → (b : Ref sig .tc) → Buf (Elt F) ((c : Thread nD τ).loc b)) (c : Dev nD),
    BodyObligation (dat1 (F := F) V c) (defs₀ (F := F)) Variants.none () Set.univ
  hin : ∀ (V : (c : Dev nD) → (b : Ref sig .tc) → Buf (Elt F) ((c : Thread nD τ).loc b)) (c : Dev nD),
    (Pipeline.ΦA spec1 c : sProp 𝕄) ⊢ (dat1 (F := F) V c).Φ 0
  hout : ∀ (V : (c : Dev nD) → (b : Ref sig .tc) → Buf (Elt F) ((c : Thread nD τ).loc b)) (c : Dev nD),
    (dat1 (F := F) V c).Φ (Fin.last cfg1.N) ⊢ (Pipeline.ΦA spec1 c : sProp 𝕄)

variable (hA : Agg (F := F))
include hA

set_option backward.isDefEq.respectTransparency.types false in
/-- Region 1 over the thread state: entered from every unscoped buffer at `W1`, left at `W2`; its arrays split out of
    the unscoped buffers and put back at the exit contents; the generator register into the region invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hA.body (VB m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (VB m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VB m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) spec1 c) ⊢ (Pipeline.ΦA spec1 c : sProp 𝕄) := by
      unfold Pipeline.ΦA
      iintro ⟨Hp, -, Hr⟩
      isplitl [Hr]; · iexact Hr
      iexact Hp
    exact h.trans (hA.hin (VB m ρ) c)
  hout c := by
    rw [Pipeline.ownSems0_none]
    have h : (Pipeline.ΦA spec1 c : sProp 𝕄) ⊢ iprop((∃ r, prngReg c r) ∗ BI.emp
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hA.hout (VB m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VB m ρ c) (VC m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ hA),
    .host (hseg hostOps2 hostOps2_sub hostOps2_noalloc (W2 m ρ)) ]
theorem main_run (c : Dev nD) : main (F := F) c = Pipeline.Seg.run (segs m ρ hA) := (main_chain c).trans (by chain_rfl)

set_option backward.isDefEq.respectTransparency.types false in
/-- The run of @main with every result named: each result array ends at the last boundary's contents, each argument as launched. -/
theorem run_named : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ hA)
    (fun c Q => by rw [main_run m ρ hA c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      (show iprop(StableHlo.held (c : Thread nD τ) (Pipeline.ucRefs τ sig) (W3 m ρ c) ∗ R c)
          ⊢ (iprop(Tₙ m ρ c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.ReferenceIdeal.Hand

end
-- ==== Proof.RVal0.lean ====
/-
  The reference's feature-transform region: the 4096 × 512 array it leaves is the feature transform `inner` of the
  four arrays its windows read.

  The region runs over eight grid points; point t sees rows 512·t … 512·t + 511 of the two 4096 × 256 arrays and the
  whole of the two 256 × 256 weight arrays, and stores one 512 × 512 block: entry (p, q) of it is, for q < 256, the sum
  over κ < 256 of (miu · att sigma)(p, κ) · Wm (κ, q), and for q ≥ 256 the sum over κ of
  ((sigma · att sigma) · att sigma)(p, κ) · Ws (κ, q − 256), the rows taken inside the point's row panel.  That block is
  rows 512·t … 512·t + 511 of `inner` of the four arrays, the eight row panels cover the 4096 rows, and every
  point writes its block back: so the array ends holding `inner`.
-/
import proofs.«153760_g2000202054435738_pallasbulk_107_3_alg».proof.Proof.RDat0
import proofs.«153760_g2000202054435738_pallasbulk_107_3_alg».proof.Proof.Spec
import proofs.«153760_g2000202054435738_pallasbulk_107_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL Idealize.SL.Sem
open Idealize.ShloMosaic.Pipeline (Dat Cfg Window)

/-! ## The stored block at an entry -/

/-- The zero offsets of a whole-buffer access, as the constant function. -/
theorem feat_zeroOff : (![0, 0] : Fin 2 → Nat) = fun _ => 0 := funext fun a => by
  match a with
  | ⟨0, _⟩ => rfl
  | ⟨1, _⟩ => rfl

/-- A column of the 512-wide block lies in the left half (below 256) or in the right half (256 + q). -/
theorem feat_col_cases (q' : Fin 512) :
    (∃ q : Fin 256, q' = (⟨q.val, by omega⟩ : Fin 512)) ∨ (∃ q : Fin 256, q' = (⟨256 + q.val, by omega⟩ : Fin 512)) := by
  have hq' : q'.val < 512 := q'.isLt
  by_cases hq : q'.val < 256
  · exact Or.inl ⟨⟨q'.val, hq⟩, rfl⟩
  · exact Or.inr ⟨⟨q'.val - 256, by omega⟩, Fin.ext (by show q'.val = 256 + (q'.val - 256); omega)⟩

/-- The feature products are plain matrix products [512, 256] · [256, 256]. -/
theorem featDot_plain : Cert.PlainDot.Plain dot_S512x256_S256x256_S512x256_1_0_0_1_n_n :=
  ⟨rfl, rfl, rfl, rfl, rfl, rfl⟩

/-- The left half of the stored block, entry (p, q) with q < 256: the mean's features of row p against column q
    of the first weight array. -/
theorem feat_block_left (x0 x1 : Vec Ideal S512x256 .f32) (x2 x3 : Vec Ideal S256x256 .f32) (p : Fin 512) (q : Fin 256) :
    k0_pay1 (F := Ideal) x0 x1 x2 x3 (ix2 p (⟨q.val, by omega⟩ : Fin 512))
      = ∑ κ : Fin 256, Cert.GC.featM (x0 (ix2 p κ)) (x1 (ix2 p κ)) * x2 (ix2 κ q) := by
  unfold k0_pay1
  refine (concatenate_pair_apply_left (t := S512x512) (s₁ := S512x256) (s₂ := S512x256) (1 : Fin 2) _ _ concatenates_S512x256_S512x256_S512x512_d1
    (ix2 p (⟨q.val, by omega⟩ : Fin 512)) rfl (ix2 p q) (fun b => by
      match b with
      | ⟨0, _⟩ => rfl
      | ⟨1, _⟩ => rfl)).trans ?_
  refine (Cert.PlainDot.matmul_zero_apply featDot_plain rfl rfl none _ _ p q).trans ?_
  exact Finset.sum_congr rfl fun κ _ => rfl

/-- The right half of the stored block, entry (p, 256 + q): the variance's features of row p against column q of
    the second weight array. -/
theorem feat_block_right (x0 x1 : Vec Ideal S512x256 .f32) (x2 x3 : Vec Ideal S256x256 .f32) (p : Fin 512) (q : Fin 256) :
    k0_pay1 (F := Ideal) x0 x1 x2 x3 (ix2 p (⟨256 + q.val, by omega⟩ : Fin 512))
      = ∑ κ : Fin 256, Cert.GC.featS (x1 (ix2 p κ)) * x3 (ix2 κ q) := by
  unfold k0_pay1
  refine (concatenate_pair_apply_right (t := S512x512) (s₁ := S512x256) (s₂ := S512x256) (1 : Fin 2) _ _ concatenates_S512x256_S512x256_S512x512_d1
    (ix2 p (⟨256 + q.val, by omega⟩ : Fin 512)) rfl rfl (ix2 p q) (fun b hb => by
      match b, hb with
      | ⟨0, _⟩, _ => rfl
      | ⟨1, _⟩, hb => exact absurd rfl hb) (by
      show q.val + 256 = 256 + q.val
      omega)).trans ?_
  refine (Cert.PlainDot.matmul_zero_apply featDot_plain rfl rfl none _ _ p q).trans ?_
  exact Finset.sum_congr rfl fun κ _ => rfl

/-! ## The windows' blocks over the grid -/

/-- The printed index maps, decided over the eight grid points: the two row-panel inputs and the output sit at row
    block t, column block 0; the two weight arrays always at block (0, 0). -/
theorem feat_panels : ∀ t : Fin cfg0.N, t.val < 8
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- Entry (p, κ) of the first input's block at point t is entry (512·t + p, κ) of its array. -/
theorem feat_miu_panel (c : Dev nD) (t : Fin cfg0.N) (p : Fin 512) (κ : Fin 256) (r : Fin 4096) (hr : r.val = 512 * t.val + p.val) :
    (iblk0 V c 0 t : Vec Ideal S512x256 .f32) (ix2 p κ) = (V c main_arg0 : S4096x256.Idx → EReal) (ix2 r κ) := by
  obtain ⟨-, e0, e1, -⟩ := feat_panels t
  unfold iblk0
  rw [View.read_apply]
  show V c main_arg0 _ = V c main_arg0 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 256 + 1 * κ.val = κ.val; rw [e1]; omega

/-- Entry (p, κ) of the second input's block at point t is entry (512·t + p, κ) of its array. -/
theorem feat_sigma_panel (c : Dev nD) (t : Fin cfg0.N) (p : Fin 512) (κ : Fin 256) (r : Fin 4096) (hr : r.val = 512 * t.val + p.val) :
    (iblk0 V c 1 t : Vec Ideal S512x256 .f32) (ix2 p κ) = (V c main_arg1 : S4096x256.Idx → EReal) (ix2 r κ) := by
  obtain ⟨-, -, -, e0, e1, -⟩ := feat_panels t
  unfold iblk0
  rw [View.read_apply]
  show V c main_arg1 _ = V c main_arg1 _
  congr 1
  funext a
  apply Fin.ext
  match a with
  | ⟨0, _⟩ => show win0_1.index t (0 : Fin 2) * 512 + 1 * p.val = r.val; rw [e0, hr]; omega
  | ⟨1, _⟩ => show win0_1.index t (1 : Fin 2) * 256 + 1 * κ.val = κ.val; rw [e1]; omega

/-- The first weight array's block at any point is the whole array. -/
theorem feat_wm_whole (c : Dev nD) (t : Fin cfg0.N) (κ : Fin 256) (q : Fin 256) :
    (iblk0 V c 2 t : Vec Ideal S256x256 .f32) (ix2 κ q) = (V c main_arg2 : S256x256.Idx → EReal) (ix2 κ q) := by
  obtain ⟨-, -, -, -, -, e0, e1, -⟩ := feat_panels t
  unfold iblk0
  rw [View.read_apply]
  show V c main_arg2 _ = V c main_arg2 _
  congr 1
  funext a
  apply Fin.ext
  match a with
  | ⟨0, _⟩ => show win0_2.index t (0 : Fin 2) * 256 + 1 * κ.val = κ.val; rw [e0]; omega
  | ⟨1, _⟩ => show win0_2.index t (1 : Fin 2) * 256 + 1 * q.val = q.val; rw [e1]; omega

/-- The second weight array's block at any point is the whole array. -/
theorem feat_ws_whole (c : Dev nD) (t : Fin cfg0.N) (κ : Fin 256) (q : Fin 256) :
    (iblk0 V c 3 t : Vec Ideal S256x256 .f32) (ix2 κ q) = (V c main_arg3 : S256x256.Idx → EReal) (ix2 κ q) := by
  obtain ⟨-, -, -, -, -, -, -, e0, e1, -⟩ := feat_panels t
  unfold iblk0
  rw [View.read_apply]
  show V c main_arg3 _ = V c main_arg3 _
  congr 1
  funext a
  apply Fin.ext
  match a with
  | ⟨0, _⟩ => show win0_3.index t (0 : Fin 2) * 256 + 1 * κ.val = κ.val; rw [e0]; omega
  | ⟨1, _⟩ => show win0_3.index t (1 : Fin 2) * 256 + 1 * q.val = q.val; rw [e1]; omega

/-! ## What a point writes back, and the array after the last point -/

/-- WHAT POINT t WRITES BACK is block t (rows 512·t … 512·t + 511) of `inner` of the four arrays as the region
    finds them: left of column 256 the mean half, from it on the variance half. -/
theorem feat_written_back (c : Dev nD) (t : Fin cfg0.N) :
    (dat0 (F := Ideal) V c).flushed 4 t
      = ((cfg0.win 4).blk t).view.read (Elt Ideal)
          (Cert.GC.inner (V c main_arg0) (V c main_arg1) (V c main_arg2) (V c main_arg3)) := by
  show (cfg0.win 4).cut (grid0.coords t) ((dat0 V c).after 4 t) = _
  rw [after0_4]
  unfold out0_4
  rw [View.canon_unit_zero feat_zeroOff]
  simp only [View.ld_unit_zero (S := S512x256) feat_zeroOff, View.ld_unit_zero (S := S256x256) feat_zeroOff]
  obtain ⟨ht, -, -, -, -, -, -, -, -, e0, e1⟩ := feat_panels t
  refine funext fun (j : S512x512.Idx) => ?_
  obtain ⟨p, q', rfl⟩ : ∃ (p : Fin 512) (q' : Fin 512), j = ix2 p q' := ⟨j 0, j 1, eq_ix2 j⟩
  have hp : p.val < 512 := p.isLt
  have hr : 512 * t.val + p.val < 4096 := by omega
  have hemb : ((cfg0.win 4).blk t).view.emb (ix2 p q') = (ix2 (⟨512 * t.val + p.val, hr⟩ : Fin 4096) q' : S4096x512.Idx) := by
    funext a; apply Fin.ext
    match a with
    | ⟨0, _⟩ => show win0_4.index t (0 : Fin 2) * 512 + 1 * p.val = 512 * t.val + p.val; rw [e0]; omega
    | ⟨1, _⟩ => show win0_4.index t (1 : Fin 2) * 512 + 1 * q'.val = q'.val; rw [e1]; omega
  show k0_pay1 (F := Ideal) (iblk0 V c 0 t) (iblk0 V c 1 t) (iblk0 V c 2 t) (iblk0 V c 3 t) (ix2 p q')
    = Cert.GC.inner (V c main_arg0) (V c main_arg1) (V c main_arg2) (V c main_arg3) (((cfg0.win 4).blk t).view.emb (ix2 p q'))
  rw [hemb]
  rcases feat_col_cases q' with ⟨q, rfl⟩ | ⟨q, rfl⟩
  · refine (feat_block_left (iblk0 V c 0 t) (iblk0 V c 1 t) (iblk0 V c 2 t) (iblk0 V c 3 t) p q).trans ?_
    refine ((Cert.GC.inner_left _ _ _ _ ⟨512 * t.val + p.val, hr⟩ q).trans ?_).symm
    unfold Cert.GC.innerM
    refine Finset.sum_congr rfl fun κ _ => ?_
    rw [feat_miu_panel V c t p κ ⟨_, hr⟩ rfl, feat_sigma_panel V c t p κ ⟨_, hr⟩ rfl, feat_wm_whole V c t κ q]
  · refine (feat_block_right (iblk0 V c 0 t) (iblk0 V c 1 t) (iblk0 V c 2 t) (iblk0 V c 3 t) p q).trans ?_
    refine ((Cert.GC.inner_right _ _ _ _ ⟨512 * t.val + p.val, hr⟩ q).trans ?_).symm
    unfold Cert.GC.innerS
    refine Finset.sum_congr rfl fun κ _ => ?_
    rw [feat_sigma_panel V c t p κ ⟨_, hr⟩ rfl, feat_ws_whole V c t κ q]

/-- An index of the array is in point t's block iff each coordinate is in the block's range on its axis. -/
theorem feat_mem_panel (t : Fin cfg0.N) (i : S4096x512.Idx) :
    i ∈ ((cfg0.win 4).blk t).view.set ↔ ∀ a : Fin 2, win0_4.index t a * S512x512.size a ≤ (i a).val
      ∧ (i a).val < win0_4.index t a * S512x512.size a + S512x512.size a := by
  show i ∈ ((View.whole main_v0).slice (win0_4.rect t)).set ↔ _
  rw [View.set_slice_whole, Rect.mem_set_unit]
  exact Iff.rfl

/-- Row r of the array lies in the block of point r / 512, which is written back: the eight row panels cover it. -/
theorem feat_panels_cover (i : S4096x512.Idx) :
    ∃ t : Fin cfg0.N, (cfg0.win 4).flush t = true ∧ i ∈ ((cfg0.win 4).blk t).view.set := by
  have hi0 : (i 0).val < 4096 := (i 0).isLt
  have hi1 : (i 1).val < 512 := (i 1).isLt
  let t : Fin cfg0.N := ⟨(i 0).val / 512, by show (i 0).val / 512 < 8; omega⟩
  obtain ⟨-, -, -, -, -, -, -, -, -, e0, e1⟩ := feat_panels t
  have ht : t.val = (i 0).val / 512 := rfl
  refine ⟨t, flush0_4 t, ?_⟩
  rw [feat_mem_panel]
  intro a
  match a with
  | ⟨0, _⟩ =>
    show win0_4.index t (0 : Fin 2) * 512 ≤ (i 0).val ∧ (i 0).val < win0_4.index t (0 : Fin 2) * 512 + 512
    rw [e0, ht]; omega
  | ⟨1, _⟩ =>
    show win0_4.index t (1 : Fin 2) * 512 ≤ (i 1).val ∧ (i 1).val < win0_4.index t (1 : Fin 2) * 512 + 512
    rw [e1]; omega

/-- The array region 0 leaves in `main_v0`, whatever contents `V` the region is entered from. -/
theorem arr0 (c : Dev nD) :
    (dat0 (F := Ideal) V c).arrAt 4 cfg0.N = Cert.GC.inner (V c main_arg0) (V c main_arg1) (V c main_arg2) (V c main_arg3) :=
  (dat0 (F := Ideal) V c).arrAt_eq_of_cover 4
    (Cert.GC.inner (V c main_arg0) (V c main_arg1) (V c main_arg2) (V c main_arg3))
    (fun t _ => feat_written_back V c t) feat_panels_cover

end Cert.ReferenceIdeal.Hand

end
-- ==== Proof.RVal1.lean ====
/-
  The reference's aggregation region: the 4096 × 512 array it leaves holds, in columns 0..255, the aggregation of the
  first adjacency array with the mean half of the array it reads, and in columns 256..511 that of the second with the
  variance half — each as eight block sums added one after another onto a total that starts at zero.
-/
import proofs.«153760_g2000202054435738_pallasbulk_107_3_alg».proof.Proof.RDat1
import proofs.«153760_g2000202054435738_pallasbulk_107_3_alg».proof.Proof.Spec
import proofs.«153760_g2000202054435738_pallasbulk_107_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The body's arithmetic at an entry -/

/-- The dimension numbers of the body's two products are those of a plain matrix product. -/
theorem plain1 : Cert.PlainDot.Plain dot_S256x512_S512x256_S256x256_1_0_0_1_n_n := ⟨rfl, rfl, rfl, rfl, rfl, rfl⟩

/-- A cleared accumulator holds zero everywhere. -/
theorem zero1_fst (p q : Fin 256) : (zero1 (F := Ideal)).1 (ix2 p q) = 0 := by
  show (k1_pay1 (F := Ideal)) (ix2 p q) = 0
  unfold k1_pay1
  refine (congrFun (shapeCast_self _ _) (ix2 p q)).trans ?_
  exact Ideal.ofBits_zero_f32

theorem zero1_snd (p q : Fin 256) : (zero1 (F := Ideal)).2 (ix2 p q) = 0 := by
  show (k1_pay2 (F := Ideal)) (ix2 p q) = 0
  unfold k1_pay2
  refine (congrFun (shapeCast_self _ _) (ix2 p q)).trans ?_
  exact Ideal.ofBits_zero_f32

/-- The first accumulator's update at (p, q): what it held plus row p of the adjacency block times column q of the feature block. -/
theorem pay4_apply (inn : Vec Ideal S512x512 .f32) (s : Vec Ideal S256x256 .f32) (a1 : Vec Ideal S256x512 .f32) (p q : Fin 256) :
    k1_pay4 inn s a1 (ix2 p q) = s (ix2 p q) + ∑ kk : Fin 512, a1 (ix2 p kk) * inn (ix2 kk (⟨q.val, by omega⟩ : Fin 512)) := by
  unfold k1_pay4 k1_pay3
  refine (congrFun (shapeCast_self _ _) (ix2 p q)).trans ?_
  refine (addf_apply _ _ _).trans ?_
  refine congrArg (s (ix2 p q) + ·) ?_
  refine (Cert.PlainDot.matmul_zero_apply plain1 rfl rfl none a1 _ p q).trans ?_
  refine Finset.sum_congr rfl fun kk _ => congrArg (a1 (ix2 p kk) * ·) ?_
  refine (extractStridedSlice_apply _ _ _ (ix2 kk q) (ix2 kk (⟨q.val, by omega⟩ : Fin 512)) fun a => ?_).trans ?_
  · match a with
    | ⟨0, _⟩ => show kk.val = 0 + kk.val; omega
    | ⟨1, _⟩ => show q.val = 0 + q.val; omega
  · exact congrFun (shapeCast_self _ _) _

/-- The second accumulator's update at (p, q): the same over columns 256.. of the feature block. -/
theorem pay5_apply (inn : Vec Ideal S512x512 .f32) (s : Vec Ideal S256x256 .f32) (a2 : Vec Ideal S256x512 .f32) (p q : Fin 256) :
    k1_pay5 inn s a2 (ix2 p q) = s (ix2 p q) + ∑ kk : Fin 512, a2 (ix2 p kk) * inn (ix2 kk (⟨256 + q.val, by omega⟩ : Fin 512)) := by
  unfold k1_pay5 k1_pay3
  refine (congrFun (shapeCast_self _ _) (ix2 p q)).trans ?_
  refine (addf_apply _ _ _).trans ?_
  refine congrArg (s (ix2 p q) + ·) ?_
  refine (Cert.PlainDot.matmul_zero_apply plain1 rfl rfl none a2 _ p q).trans ?_
  refine Finset.sum_congr rfl fun kk _ => congrArg (a2 (ix2 p kk) * ·) ?_
  refine (extractStridedSlice_apply _ _ _ (ix2 kk q) (ix2 kk (⟨256 + q.val, by omega⟩ : Fin 512)) fun a => ?_).trans ?_
  · match a with
    | ⟨0, _⟩ => show kk.val = 0 + kk.val; omega
    | ⟨1, _⟩ => show 256 + q.val = 256 + q.val; rfl
  · exact congrFun (shapeCast_self _ _) _

/-! ## The blocks as entries of the arrays -/

/-- The two adjacency arrays and the feature array as the region finds them, and the three blocks a point reads, at their literal types. -/
abbrev adjA (c : Dev nD) : Vec Ideal S4096x4096 .f32 := V c main_arg4
abbrev adjB (c : Dev nD) : Vec Ideal S4096x4096 .f32 := V c main_arg5
abbrev feat (c : Dev nD) : Vec Ideal S4096x512 .f32 := V c main_v0
abbrev blkA (c : Dev nD) (t : Fin cfg1.N) : Vec Ideal S256x512 .f32 := iblk1 V c 0 t
abbrev blkB (c : Dev nD) (t : Fin cfg1.N) : Vec Ideal S256x512 .f32 := iblk1 V c 1 t
abbrev blkF (c : Dev nD) (t : Fin cfg1.N) : Vec Ideal S512x512 .f32 := iblk1 V c 2 t

/-- Point t is (row panel t / 8, contraction block t % 8): the block indices of the four windows there. -/
theorem idx1 : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = t.val % 8
    ∧ win1_2.index t (0 : Fin 2) = t.val % 8 ∧ win1_2.index t (1 : Fin 2) = 0
    ∧ win1_3.index t (0 : Fin 2) = t.val / 8 ∧ win1_3.index t (1 : Fin 2) = 0 :=
  (by decide +kernel : ∀ t : Fin grid1.N, _)

/-- Entry (p, kk) of the first adjacency block at point t is entry ((t / 8) · 256 + p, (t % 8) · 512 + kk) of the first adjacency array. -/
theorem blkA_apply (c : Dev nD) (t : Fin cfg1.N) (p : Fin 256) (kk : Fin 512) (r k : Fin 4096)
    (hr : r.val = t.val / 8 * 256 + p.val) (hk : k.val = t.val % 8 * 512 + kk.val) :
    blkA V c t (ix2 p kk) = adjA V c (ix2 r k) := by
  obtain ⟨e0, e1, -⟩ := idx1 t
  unfold blkA adjA iblk1
  rw [View.read_apply]
  show V c main_arg4 _ = V c main_arg4 _
  congr 1
  funext a
  apply Fin.ext
  match a with
  | ⟨0, _⟩ => show win1_0.index t 0 * 256 + 1 * p.val = r.val; rw [e0, hr]; omega
  | ⟨1, _⟩ => show win1_0.index t 1 * 512 + 1 * kk.val = k.val; rw [e1, hk]; omega

/-- The same for the second adjacency block and array. -/
theorem blkB_apply (c : Dev nD) (t : Fin cfg1.N) (p : Fin 256) (kk : Fin 512) (r k : Fin 4096)
    (hr : r.val = t.val / 8 * 256 + p.val) (hk : k.val = t.val % 8 * 512 + kk.val) :
    blkB V c t (ix2 p kk) = adjB V c (ix2 r k) := by
  obtain ⟨-, -, e0, e1, -⟩ := idx1 t
  unfold blkB adjB iblk1
  rw [View.read_apply]
  show V c main_arg5 _ = V c main_arg5 _
  congr 1
  funext a
  apply Fin.ext
  match a with
  | ⟨0, _⟩ => show win1_1.index t 0 * 256 + 1 * p.val = r.val; rw [e0, hr]; omega
  | ⟨1, _⟩ => show win1_1.index t 1 * 512 + 1 * kk.val = k.val; rw [e1, hk]; omega

/-- Entry (kk, j) of the feature block at point t is entry ((t % 8) · 512 + kk, j) of the feature array. -/
theorem blkF_apply (c : Dev nD) (t : Fin cfg1.N) (kk j : Fin 512) (k : Fin 4096)
    (hk : k.val = t.val % 8 * 512 + kk.val) :
    blkF V c t (ix2 kk j) = feat V c (ix2 k j) := by
  obtain ⟨-, -, -, -, e0, e1, -⟩ := idx1 t
  unfold blkF feat iblk1
  rw [View.read_apply]
  show V c main_v0 _ = V c main_v0 _
  congr 1
  funext a
  apply Fin.ext
  match a with
  | ⟨0, _⟩ => show win1_2.index t 0 * 512 + 1 * kk.val = k.val; rw [e0, hk]; omega
  | ⟨1, _⟩ => show win1_2.index t 1 * 512 + 1 * j.val = j.val; rw [e1]; omega

/-! ## The accumulators after a point -/

/-- One point's update of the first accumulator at (p, q): block t % 8 of the sum for row (t / 8) · 256 + p is added. -/
theorem step1_fst (c : Dev nD) (t : Fin cfg1.N) (s : Vec Ideal S256x256 .f32 × Vec Ideal S256x256 .f32) (p q : Fin 256) (r : Fin 4096)
    (hr : r.val = t.val / 8 * 256 + p.val) :
    (step1 (iblk1 V c 0 t) (iblk1 V c 1 t) (iblk1 V c 2 t) s).1 (ix2 p q)
      = s.1 (ix2 p q) + Cert.GC.blockSum (Cert.GC.termM (adjA V c) (feat V c) r q) (t.val % 8) := by
  show k1_pay4 (blkF V c t) s.1 (blkA V c t) (ix2 p q) = _
  refine (pay4_apply (blkF V c t) s.1 (blkA V c t) p q).trans ?_
  refine congrArg (s.1 (ix2 p q) + ·) ?_
  unfold Cert.GC.blockSum
  refine Finset.sum_congr rfl fun kk _ => ?_
  unfold Cert.GC.termM
  have hkk : kk.val < 512 := kk.isLt
  have hk : (⟨t.val % 8 % 8 * 512 + kk.val, by omega⟩ : Fin 4096).val = t.val % 8 * 512 + kk.val := by
    show t.val % 8 % 8 * 512 + kk.val = t.val % 8 * 512 + kk.val; omega
  exact congrArg₂ (· * ·) (blkA_apply V c t p kk r _ hr hk) (blkF_apply V c t kk _ _ hk)

/-- The same for the second accumulator, over the variance half. -/
theorem step1_snd (c : Dev nD) (t : Fin cfg1.N) (s : Vec Ideal S256x256 .f32 × Vec Ideal S256x256 .f32) (p q : Fin 256) (r : Fin 4096)
    (hr : r.val = t.val / 8 * 256 + p.val) :
    (step1 (iblk1 V c 0 t) (iblk1 V c 1 t) (iblk1 V c 2 t) s).2 (ix2 p q)
      = s.2 (ix2 p q) + Cert.GC.blockSum (Cert.GC.termS (adjB V c) (feat V c) r q) (t.val % 8) := by
  show k1_pay5 (blkF V c t) s.2 (blkB V c t) (ix2 p q) = _
  refine (pay5_apply (blkF V c t) s.2 (blkB V c t) p q).trans ?_
  refine congrArg (s.2 (ix2 p q) + ·) ?_
  unfold Cert.GC.blockSum
  refine Finset.sum_congr rfl fun kk _ => ?_
  unfold Cert.GC.termS
  have hkk : kk.val < 512 := kk.isLt
  have hk : (⟨t.val % 8 % 8 * 512 + kk.val, by omega⟩ : Fin 4096).val = t.val % 8 * 512 + kk.val := by
    show t.val % 8 % 8 * 512 + kk.val = t.val % 8 * 512 + kk.val; omega
  exact congrArg₂ (· * ·) (blkB_apply V c t p kk r _ hr hk) (blkF_apply V c t kk _ _ hk)

/-- After point n the accumulators hold, at (p, q), the running totals of blocks 0 .. n % 8 of the two sums for row (n / 8) · 256 + p. -/
theorem acc1 (c : Dev nD) : ∀ (n : ℕ) (hn : n < cfg1.N) (p q : Fin 256) (r : Fin 4096), r.val = n / 8 * 256 + p.val →
    (scAt1 V c n hn).1 (ix2 p q) = Cert.GC.accB (Cert.GC.termM (adjA V c) (feat V c) r q) (n % 8 + 1)
    ∧ (scAt1 V c n hn).2 (ix2 p q) = Cert.GC.accB (Cert.GC.termS (adjB V c) (feat V c) r q) (n % 8 + 1) := by
  intro n
  induction n with
  | zero =>
    intro hn p q r hr
    rw [scAt1_first V c ⟨0, hn⟩ rfl]
    refine ⟨(step1_fst V c ⟨0, hn⟩ zero1 p q r hr).trans ?_, (step1_snd V c ⟨0, hn⟩ zero1 p q r hr).trans ?_⟩
    · rw [zero1_fst]; rfl
    · rw [zero1_snd]; rfl
  | succ n ih =>
    intro hn p q r hr
    by_cases h : (n + 1) % 8 = 0
    · rw [scAt1_first V c ⟨n + 1, hn⟩ h]
      refine ⟨(step1_fst V c ⟨n + 1, hn⟩ zero1 p q r hr).trans ?_, (step1_snd V c ⟨n + 1, hn⟩ zero1 p q r hr).trans ?_⟩
      · rw [zero1_fst]; show _ = Cert.GC.accB _ ((n + 1) % 8) + Cert.GC.blockSum _ ((n + 1) % 8); rw [h]; rfl
      · rw [zero1_snd]; show _ = Cert.GC.accB _ ((n + 1) % 8) + Cert.GC.blockSum _ ((n + 1) % 8); rw [h]; rfl
    · rw [scAt1_next V c ⟨n + 1, hn⟩ h]
      have hr' : r.val = n / 8 * 256 + p.val := by rw [hr]; congr 2; omega
      obtain ⟨i1, i2⟩ := ih (Nat.lt_of_succ_lt hn) p q r hr'
      have e : n % 8 + 1 = (n + 1) % 8 := by omega
      refine ⟨(step1_fst V c ⟨n + 1, hn⟩ _ p q r hr).trans ?_, (step1_snd V c ⟨n + 1, hn⟩ _ p q r hr).trans ?_⟩
      · show (scAt1 V c n _).1 (ix2 p q) + _ = Cert.GC.accB _ ((n + 1) % 8) + Cert.GC.blockSum _ ((n + 1) % 8)
        rw [i1, e]
      · show (scAt1 V c n _).2 (ix2 p q) + _ = Cert.GC.accB _ ((n + 1) % 8) + Cert.GC.blockSum _ ((n + 1) % 8)
        rw [i2, e]

/-! ## The output buffer at the end of a row panel -/

/-- The left half of the two accumulators laid side by side is the first. -/
theorem outBlk1_left (s : Vec Ideal S256x256 .f32 × Vec Ideal S256x256 .f32) (p q : Fin 256) :
    outBlk1 s (ix2 p (⟨q.val, by omega⟩ : Fin 512)) = s.1 (ix2 p q) := by
  unfold outBlk1
  rw [View.canon_cons_of_not_mem _ _ (by
    rw [Rect.mem_set_unit]
    intro h
    have h1 : 256 ≤ q.val := (h 1).1
    omega)]
  have e : (ix2 p (⟨q.val, by omega⟩ : Fin 512) : S256x512.Idx) = r1A.emb (ix2 p q) := funext fun a => Fin.ext (by
    match a with
    | ⟨0, _⟩ => show p.val = 0 + 1 * p.val; omega
    | ⟨1, _⟩ => show q.val = 0 + 1 * q.val; omega)
  rw [e]
  exact View.canon_cons_emb r1A s.1 [] (ix2 p q)

/-- The right half is the second. -/
theorem outBlk1_right (s : Vec Ideal S256x256 .f32 × Vec Ideal S256x256 .f32) (p q : Fin 256) :
    outBlk1 s (ix2 p (⟨256 + q.val, by omega⟩ : Fin 512)) = s.2 (ix2 p q) := by
  unfold outBlk1
  have e : (ix2 p (⟨256 + q.val, by omega⟩ : Fin 512) : S256x512.Idx) = r1B.emb (ix2 p q) := funext fun a => Fin.ext (by
    match a with
    | ⟨0, _⟩ => show p.val = 0 + 1 * p.val; omega
    | ⟨1, _⟩ => show 256 + q.val = 256 + 1 * q.val; omega)
  rw [e]
  exact View.canon_cons_emb r1B s.2 _ (ix2 p q)

/-- At the last point of a row panel the buffer's left half holds the eight-block totals of the mean aggregation. -/
theorem flush1_left (c : Dev nD) (t : Fin cfg1.N) (h7 : t.val % 8 = 7) (p q : Fin 256) (r : Fin 4096)
    (hr : r.val = t.val / 8 * 256 + p.val) :
    outBlk1 (scAt1 V c t.val t.isLt) (ix2 p (⟨q.val, by omega⟩ : Fin 512)) = Cert.GC.aggMB (adjA V c) (feat V c) (ix2 r q) := by
  rw [outBlk1_left]
  refine (acc1 V c t.val t.isLt p q r hr).1.trans ?_
  rw [h7]
  rfl

/-- And its right half those of the variance aggregation. -/
theorem flush1_right (c : Dev nD) (t : Fin cfg1.N) (h7 : t.val % 8 = 7) (p q : Fin 256) (r : Fin 4096)
    (hr : r.val = t.val / 8 * 256 + p.val) :
    outBlk1 (scAt1 V c t.val t.isLt) (ix2 p (⟨256 + q.val, by omega⟩ : Fin 512)) = Cert.GC.aggSB (adjB V c) (feat V c) (ix2 r q) := by
  rw [outBlk1_right]
  refine (acc1 V c t.val t.isLt p q r hr).2.trans ?_
  rw [h7]
  rfl

/-! ## The array the region leaves -/

/-- The array the region leaves: columns 0..255 the blocked mean aggregation, columns 256..511 the blocked variance aggregation. -/
def G1 (c : Dev nD) : Vec Ideal S4096x512 .f32 := fun i =>
  if h : (i 1).val < 256 then Cert.GC.aggMB (adjA V c) (feat V c) (ix2 (⟨(i 0).val, (i 0).isLt⟩ : Fin 4096) (⟨(i 1).val, h⟩ : Fin 256))
  else Cert.GC.aggSB (adjB V c) (feat V c) (ix2 (⟨(i 0).val, (i 0).isLt⟩ : Fin 4096)
    (⟨(i 1).val - 256, by have := (i 1).isLt; change (i 1).val < 512 at this; omega⟩ : Fin 256))

theorem G1_left (c : Dev nD) (r : Fin 4096) (q : Fin 256) :
    G1 V c (ix2 r (⟨q.val, by omega⟩ : Fin 512)) = Cert.GC.aggMB (adjA V c) (feat V c) (ix2 r q) := by
  unfold G1
  rw [dif_pos (show ((ix2 r (⟨q.val, by omega⟩ : Fin 512) : S4096x512.Idx) 1).val < 256 from q.isLt)]

theorem G1_right (c : Dev nD) (r : Fin 4096) (q : Fin 256) :
    G1 V c (ix2 r (⟨256 + q.val, by omega⟩ : Fin 512)) = Cert.GC.aggSB (adjB V c) (feat V c) (ix2 r q) := by
  unfold G1
  rw [dif_neg (show ¬ ((ix2 r (⟨256 + q.val, by omega⟩ : Fin 512) : S4096x512.Idx) 1).val < 256 from by
    show ¬ (256 + q.val < 256); omega)]
  congr 2
  exact Fin.ext (show 256 + q.val - 256 = q.val by omega)

/-- What the last point of a row panel writes back is its block of that array. -/
theorem flushed1_3 (c : Dev nD) (t : Fin cfg1.N) (hf : (cfg1.win 3).flush t = true) :
    (dat1 V c).flushed 3 t = ((cfg1.win 3).blk t).view.read (Elt Ideal) (G1 V c) := by
  have h7 : t.val % 8 = 7 := (flush1_3 t).mp hf
  have hN : t.val < 128 := Nat.lt_of_lt_of_eq t.isLt (show cfg1.N = 128 from N_1)
  obtain ⟨-, -, -, -, -, -, e0, e1⟩ := idx1 t
  show (cfg1.win 3).cut (grid1.coords t) ((dat1 V c).after 3 t) = _
  rw [after1_3]
  funext j
  rw [View.read_apply]
  have hj0 : (j 0).val < 256 := (j 0).isLt
  have hj1 : (j 1).val < 512 := (j 1).isLt
  have ex : (cfg1.win 3).xinj (grid1.coords t) j
      = (ix2 (⟨(j 0).val, hj0⟩ : Fin 256) (⟨(j 1).val, hj1⟩ : Fin 512) : S256x512.Idx) := funext fun a => by
    match a with
    | ⟨0, _⟩ => rfl
    | ⟨1, _⟩ => rfl
  have ee : ((cfg1.win 3).blk t).view.emb j
      = (ix2 (⟨t.val / 8 * 256 + (j 0).val, by omega⟩ : Fin 4096) (⟨(j 1).val, hj1⟩ : Fin 512) : S4096x512.Idx) := funext fun a => Fin.ext (by
    match a with
    | ⟨0, _⟩ => show win1_3.index t 0 * 256 + 1 * (j 0).val = t.val / 8 * 256 + (j 0).val; rw [e0]; omega
    | ⟨1, _⟩ => show win1_3.index t 1 * 512 + 1 * (j 1).val = (j 1).val; rw [e1]; omega)
  show outBlk1 (scAt1 V c t.val t.isLt) ((cfg1.win 3).xinj (grid1.coords t) j) = G1 V c (((cfg1.win 3).blk t).view.emb j)
  rw [ex, ee]
  by_cases h : (j 1).val < 256
  · refine (flush1_left V c t h7 ⟨(j 0).val, hj0⟩ ⟨(j 1).val, h⟩ ⟨t.val / 8 * 256 + (j 0).val, by omega⟩ rfl).trans ?_
    exact (G1_left V c ⟨t.val / 8 * 256 + (j 0).val, by omega⟩ ⟨(j 1).val, h⟩).symm
  · have hq : (j 1).val - 256 < 256 := by omega
    have e2 : (⟨(j 1).val, hj1⟩ : Fin 512) = ⟨256 + (⟨(j 1).val - 256, hq⟩ : Fin 256).val, by omega⟩ :=
      Fin.ext (show (j 1).val = 256 + ((j 1).val - 256) by omega)
    rw [e2]
    refine (flush1_right V c t h7 ⟨(j 0).val, hj0⟩ ⟨(j 1).val - 256, hq⟩ ⟨t.val / 8 * 256 + (j 0).val, by omega⟩ rfl).trans ?_
    exact (G1_right V c ⟨t.val / 8 * 256 + (j 0).val, by omega⟩ ⟨(j 1).val - 256, hq⟩).symm

/-- An entry of the array is in point t's block exactly when each coordinate is in the block's range. -/
theorem mem_blk1_3 (t : Fin cfg1.N) (i : S4096x512.Idx) :
    i ∈ ((cfg1.win 3).blk t).view.set ↔ ∀ a : Fin 2, win1_3.index t a * S256x512.size a ≤ (i a).val
      ∧ (i a).val < win1_3.index t a * S256x512.size a + S256x512.size a := by
  show i ∈ ((View.whole main_v1).slice (win1_3.rect t)).set ↔ _
  rw [View.set_slice_whole, Rect.mem_set_unit]
  exact Iff.rfl

/-- Row r lies in the block written back at the last point of row panel r / 256. -/
theorem cover1 (i : S4096x512.Idx) : ∃ t : Fin cfg1.N, (cfg1.win 3).flush t = true ∧ i ∈ ((cfg1.win 3).blk t).view.set := by
  have hi0 : (i 0).val < 4096 := (i 0).isLt
  have hi1 : (i 1).val < 512 := (i 1).isLt
  have hlt : (i 0).val / 256 * 8 + 7 < cfg1.N := by rw [show cfg1.N = 128 from N_1]; omega
  refine ⟨⟨(i 0).val / 256 * 8 + 7, hlt⟩, (flush1_3 _).mpr (by show ((i 0).val / 256 * 8 + 7) % 8 = 7; omega), ?_⟩
  obtain ⟨-, -, -, -, -, -, e0, e1⟩ := idx1 ⟨(i 0).val / 256 * 8 + 7, hlt⟩
  have e0' : win1_3.index ⟨(i 0).val / 256 * 8 + 7, hlt⟩ 0 = ((i 0).val / 256 * 8 + 7) / 8 := e0
  rw [mem_blk1_3]
  intro a
  match a with
  | ⟨0, _⟩ =>
    show win1_3.index ⟨(i 0).val / 256 * 8 + 7, hlt⟩ 0 * 256 ≤ (i 0).val
      ∧ (i 0).val < win1_3.index ⟨(i 0).val / 256 * 8 + 7, hlt⟩ 0 * 256 + 256
    rw [e0']; omega
  | ⟨1, _⟩ =>
    show win1_3.index ⟨(i 0).val / 256 * 8 + 7, hlt⟩ 1 * 512 ≤ (i 1).val
      ∧ (i 1).val < win1_3.index ⟨(i 0).val / 256 * 8 + 7, hlt⟩ 1 * 512 + 512
    rw [e1]; omega

/-- The region leaves that array. -/
theorem arr1_eq (c : Dev nD) : (dat1 (F := Ideal) V c).arrAt 3 cfg1.N = G1 V c :=
  (dat1 V c).arrAt_eq_of_cover 3 (G1 V c) (flushed1_3 V c) cover1

/-- Columns 0..255 of the array region 1 leaves in `main_v1`. -/
theorem arr1_left (c : Dev nD) (r : Fin 4096) (q : Fin 256) :
    (dat1 (F := Ideal) V c).arrAt 3 cfg1.N (ix2 r (⟨q.val, by omega⟩ : Fin 512)) = Cert.GC.aggMB (V c main_arg4) (V c main_v0) (ix2 r q) :=
  (congrFun (arr1_eq V c) (ix2 r (⟨q.val, by omega⟩ : Fin 512))).trans (G1_left V c r q)

/-- Columns 256..511 of the array region 1 leaves in `main_v1`. -/
theorem arr1_right (c : Dev nD) (r : Fin 4096) (q : Fin 256) :
    (dat1 (F := Ideal) V c).arrAt 3 cfg1.N (ix2 r (⟨256 + q.val, by omega⟩ : Fin 512)) = Cert.GC.aggSB (V c main_arg5) (V c main_v0) (ix2 r q) :=
  (congrFun (arr1_eq V c) (ix2 r (⟨256 + q.val, by omega⟩ : Fin 512))).trans (G1_right V c r q)

end Cert.ReferenceIdeal.Hand

end
-- ==== Proof.RValue.lean ====
/-
  The reference's whole run read as values: the two result arrays are the blocked aggregations (eight block sums
  added one after another) of the two adjacency arrays with the feature transform of the other four arguments; every
  argument ends as launched.

  The buffer contents at the segment boundaries are a fold from the launch memory: the first region leaves the
  feature array, the second reads it block by block and leaves the 4096 × 512 array of both aggregations side by side,
  and the host stretch slices its two halves out.
-/
import proofs.«153760_g2000202054435738_pallasbulk_107_3_alg».proof.Proof.RRun
import proofs.«153760_g2000202054435738_pallasbulk_107_3_alg».proof.Proof.RVal0
import proofs.«153760_g2000202054435738_pallasbulk_107_3_alg».proof.Proof.RVal1
import Idealize.ShloMosaic.Lib.StableHlo.Run

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL Idealize.SL.BI Idealize.SL.Sem
open scoped Idealize.SL.BI
open Idealize.ShloMosaic.Pipeline (Dat Cfg Window BodyObligation)

local notation "𝕄" => MT nD τ sig Unit (Elt Ideal) ℕ (UR sig nD τ) ℕ

variable (m : (ℓ : Loc nD τ sig) → Buf (Elt Ideal) ℓ) (ρ : Dev nD → PrngReg)

/-- The mean result, as a function of the launch memory on core `c`. -/
def resMB (c : Dev nD) : Cert.GC.A4096x256.Idx → EReal :=
  Cert.GC.aggMB (m ((c.tc : Thread nD τ).loc main_arg4))
    (Cert.GC.inner (m ((c.tc : Thread nD τ).loc main_arg0)) (m ((c.tc : Thread nD τ).loc main_arg1))
      (m ((c.tc : Thread nD τ).loc main_arg2)) (m ((c.tc : Thread nD τ).loc main_arg3)))

/-- The variance result, as a function of the launch memory on core `c`. -/
def resSB (c : Dev nD) : Cert.GC.A4096x256.Idx → EReal :=
  Cert.GC.aggSB (m ((c.tc : Thread nD τ).loc main_arg5))
    (Cert.GC.inner (m ((c.tc : Thread nD τ).loc main_arg0)) (m ((c.tc : Thread nD τ).loc main_arg1))
      (m ((c.tc : Thread nD τ).loc main_arg2)) (m ((c.tc : Thread nD τ).loc main_arg3)))

/-! ## The boundary contents, one step at a time -/

/-- The feature region writes no adjacency array: the aggregation region finds the first as launched. -/
theorem VB_arg4 (c : Dev nD) : VB m ρ c main_arg4 = m ((c.tc : Thread nD τ).loc main_arg4) :=
  (W1_of_ne m ρ c main_arg4 (by decide)).trans rfl

/-- The aggregation region finds the second adjacency array as launched. -/
theorem VB_arg5 (c : Dev nD) : VB m ρ c main_arg5 = m ((c.tc : Thread nD τ).loc main_arg5) :=
  (W1_of_ne m ρ c main_arg5 (by decide)).trans rfl

/-- The feature region leaves the feature transform of the first four arguments in the feature array. -/
theorem VB_v0 (c : Dev nD) :
    VB m ρ c main_v0 = Cert.GC.inner (m ((c.tc : Thread nD τ).loc main_arg0)) (m ((c.tc : Thread nD τ).loc main_arg1))
      (m ((c.tc : Thread nD τ).loc main_arg2)) (m ((c.tc : Thread nD τ).loc main_arg3)) := by
  refine (W1_arr m ρ c 4).trans ?_
  rw [arr0 (VA m ρ) c]

/-- The aggregation region leaves in the 4096 × 512 array what its write-backs leave. -/
theorem W2_v1 (c : Dev nD) :
    W2 m ρ c (Proc.devRef .tc main_v1) = (dat1 (F := Ideal) (VB m ρ) c).arrAt 3 cfg1.N :=
  W2_arr m ρ c 3

/-- The first host slice: the first result is columns 0 … 255 of the 4096 × 512 array. -/
theorem W3_v2_slice (c : Dev nD) :
    (W3 m ρ c (Proc.devRef .tc main_v2) : Cert.GC.A4096x256.Idx → EReal)
      = extractStridedSlice S4096x256 ![0, 0] (W2 m ρ c (Proc.devRef .tc main_v1) : S4096x512.Idx → EReal)
          slices_S4096x512_S4096x256_0_0 := by
  show StableHlo.after hostOps2 _ (Proc.devRef .tc main_v2) = _
  after_results

/-- The second host slice: the second result is columns 256 … 511 of the 4096 × 512 array. -/
theorem W3_v3_slice (c : Dev nD) :
    (W3 m ρ c (Proc.devRef .tc main_v3) : Cert.GC.A4096x256.Idx → EReal)
      = extractStridedSlice S4096x256 ![0, 256] (W2 m ρ c (Proc.devRef .tc main_v1) : S4096x512.Idx → EReal)
          slices_S4096x512_S4096x256_0_256 := by
  show StableHlo.after hostOps2 _ (Proc.devRef .tc main_v3) = _
  after_results

/-- The last boundary's contents at the first result. -/
theorem W3_v2 (c : Dev nD) : W3 m ρ c (Proc.devRef .tc main_v2) = resMB m c := by
  funext i
  obtain ⟨r, q, rfl⟩ : ∃ (r : Fin 4096) (q : Fin 256), i = ix2 r q := ⟨i 0, i 1, eq_ix2 i⟩
  refine (congrFun (W3_v2_slice m ρ c) (ix2 r q)).trans ?_
  refine (extractStridedSlice_apply _ _ _ (ix2 r q) (ix2 r (⟨q.val, by omega⟩ : Fin 512)) (fun a => by
    match a with
    | ⟨0, _⟩ => show r.val = 0 + r.val; omega
    | ⟨1, _⟩ => show q.val = 0 + q.val; omega)).trans ?_
  refine (congrFun (W2_v1 m ρ c) _).trans ?_
  refine (arr1_left (VB m ρ) c r q).trans ?_
  unfold resMB
  rw [VB_arg4, VB_v0]

/-- The last boundary's contents at the second result. -/
theorem W3_v3 (c : Dev nD) : W3 m ρ c (Proc.devRef .tc main_v3) = resSB m c := by
  funext i
  obtain ⟨r, q, rfl⟩ : ∃ (r : Fin 4096) (q : Fin 256), i = ix2 r q := ⟨i 0, i 1, eq_ix2 i⟩
  refine (congrFun (W3_v3_slice m ρ c) (ix2 r q)).trans ?_
  refine (extractStridedSlice_apply _ _ _ (ix2 r q) (ix2 r (⟨256 + q.val, by omega⟩ : Fin 512)) (fun a => by
    match a with
    | ⟨0, _⟩ => show r.val = 0 + r.val; omega
    | ⟨1, _⟩ => show 256 + q.val = 256 + q.val; rfl)).trans ?_
  refine (congrFun (W2_v1 m ρ c) _).trans ?_
  refine (arr1_right (VB m ρ) c r q).trans ?_
  unfold resSB
  rw [VB_arg5, VB_v0]

/-- The reference's run with both results at their values and every argument as launched, given the aggregation
    region's obligations. -/
theorem run_value (hA : Agg (F := Ideal)) :
    θ_run (defs (F := Ideal)) (onTc (τ := τ) (main (F := Ideal))) ⟨m, fun _ => 0, ρ⟩ (fun r => ∀ c : Dev nD,
      r.2.mem ((c.tc : Thread nD τ).loc main_v2) = resMB m c
      ∧ r.2.mem ((c.tc : Thread nD τ).loc main_v3) = resSB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => ⟨(h c).1.trans (W3_v2 m ρ c), (h c).2.1.trans (W3_v3 m ρ c), (h c).2.2⟩)
    (run_named (F := Ideal) m ρ hA)

end Cert.ReferenceIdeal.Hand

end
-- ==== Proof.RBody1.lean ====
/-
  The reference's aggregation region (pipeline 1): the kernel body run at a grid point — the three inputs at their
  blocks, the accumulators at what the point before left (at anything at a row panel's first point, where the body
  clears them) — leaves the accumulators one step further and, at a row panel's last point, the output buffer at the two
  accumulators side by side; hence the pipeline's body obligation at every grid point, and the invariant's two ends.
-/
import proofs.«153760_g2000202054435738_pallasbulk_107_3_alg».proof.Proof.RDat1
import Idealize.ShloMosaic.Lib.Pipeline.Value

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions, in closed form over the grid -/

/-- The first conditional's test: the contraction-block coordinate is 0. -/
abbrev cond1_0 (i : grid1.Coords) : Prop :=
  (Scalar.cmpi .ne (Scalar.extui (Scalar.cmpi .eq (BitVec.ofNat 32 (i 1).val) 0#32)) 0#32) = 1#1
/-- The second conditional's test: the contraction-block coordinate is 7. -/
abbrev cond1_1 (i : grid1.Coords) : Prop := k1_cond2 i = 1#1

/-- The first holds exactly at a row panel's first point, -/
theorem hcond1_0 : ∀ t : Fin cfg1.N, cond1_0 (grid1.coords t) ↔ t.val % 8 = 0 :=
  (by decide +kernel : ∀ t : Fin grid1.N, cond1_0 (grid1.coords t) ↔ t.val % 8 = 0)
/-- the second exactly at its last. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Whole-buffer loads and stores -/

theorem zeros1_2 : (![0, 0] : Fin 2 → Nat) = fun _ => 0 := funext fun a => by fin_cases a <;> rfl

/-- After a last store through the whole-shape rectangle the buffer reads as that store's payload, whatever was stored before. -/
theorem read_store_whole1 {S : Shape} {e : EltTy} (v : View sig .tc .vmem S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-! ## The body's triple, case by case -/

set_option maxHeartbeats 1000000 in
/-- A middle point (neither conditional taken): each accumulator is read, updated and stored once; the output buffer is not touched. -/
theorem run1_mid (c : Dev nD) (E : Set ℕ) (i : grid1.Coords)
    (arg2 : Memref sig .tc .vmem S256x512 .f32) (harg2 : arg2.IsWhole) (arg3 : Memref sig .tc .vmem S256x512 .f32) (harg3 : arg3.IsWhole)
    (arg4 : Memref sig .tc .vmem S512x512 .f32) (harg4 : arg4.IsWhole) (arg5 : Memref sig .tc .vmem S256x512 .f32) (harg5 : arg5.IsWhole)
    (arg6 : Memref sig .tc .vmem S256x256 .f32) (harg6 : arg6.IsWhole) (arg7 : Memref sig .tc .vmem S256x256 .f32) (harg7 : arg7.IsWhole)
    (hc0 : ¬cond1_0 i) (hc1 : ¬cond1_1 i)
    (x0 x1 : Vec F S256x512 .f32) (x2 : Vec F S512x512 .f32) (s : Vec F S256x256 .f32 × Vec F S256x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg6 fullShare s.1 ∗ owns (c : Thread nD τ) arg7 fullShare s.2
        ∗ (iprop(owns (c : Thread nD τ) arg2 fullShare x0 ∗ owns (c : Thread nD τ) arg3 fullShare x1 ∗ owns (c : Thread nD τ) arg4 fullShare x2
            ∗ owns (c : Thread nD τ) arg6 fullShare (step1 x0 x1 x2 s).1 ∗ owns (c : Thread nD τ) arg7 fullShare (step1 x0 x1 x2 s).2) -∗ K ⟨⟩))
      ⊢ wp frame (wpE (defs₀ (F := F)) Variants.none c none) E (cc1__aggregate_kernel i arg2 harg2 arg3 harg3 arg4 harg4 arg5 harg5 arg6 harg6 arg7 harg7) K := by
  obtain ⟨s6, s7⟩ := s
  simp only [cc1__aggregate_kernel_eq_skeleton]; unfold cc1__aggregate_kernel_skel
  unfold owns
  iintro ⟨⟨%f0, %hf0, H0⟩, ⟨%f1, %hf1, H1⟩, ⟨%f2, %hf2, H2⟩, ⟨%f6, %hf6, H6⟩, ⟨%f7, %hf7, H7⟩, Hk⟩
  dsimp only at hf6 hf7
  subst hf0 hf1 hf2 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H6]
  · iexists _; isplitr
    swap; · iexact H6
    ipureintro
    (try sl_unfold_words)
    rw [read_store_whole1 _ _ zeros1_2]
    unfold step1; dsimp only
    simp only [View.readAt_eq_ld, View.readCov_unit_zero (S := S256x256) _ zeros1_2, View.ld_unit_zero (S := S256x256) zeros1_2, View.ld_unit_zero (S := S256x512) zeros1_2, View.ld_unit_zero (S := S512x512) zeros1_2]
  iexists _; isplitr
  swap; · iexact H7
  ipureintro
  (try sl_unfold_words)
  rw [read_store_whole1 _ _ zeros1_2]
  unfold step1; dsimp only
  simp only [View.readAt_eq_ld, View.readCov_unit_zero (S := S256x256) _ zeros1_2, View.ld_unit_zero (S := S256x256) zeros1_2, View.ld_unit_zero (S := S256x512) zeros1_2, View.ld_unit_zero (S := S512x512) zeros1_2]

set_option maxHeartbeats 1000000 in
/-- A row panel's first point (the first conditional taken): each accumulator is cleared, then read, updated and stored — the later
    store covers the clearing one, and the read in between reads the cleared accumulator. -/
theorem run1_first (c : Dev nD) (E : Set ℕ) (i : grid1.Coords)
    (arg2 : Memref sig .tc .vmem S256x512 .f32) (harg2 : arg2.IsWhole) (arg3 : Memref sig .tc .vmem S256x512 .f32) (harg3 : arg3.IsWhole)
    (arg4 : Memref sig .tc .vmem S512x512 .f32) (harg4 : arg4.IsWhole) (arg5 : Memref sig .tc .vmem S256x512 .f32) (harg5 : arg5.IsWhole)
    (arg6 : Memref sig .tc .vmem S256x256 .f32) (harg6 : arg6.IsWhole) (arg7 : Memref sig .tc .vmem S256x256 .f32) (harg7 : arg7.IsWhole)
    (hc0 : cond1_0 i) (hc1 : ¬cond1_1 i)
    (x0 x1 : Vec F S256x512 .f32) (x2 : Vec F S512x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg6 fullShare (step1 x0 x1 x2 zero1).1 ∗ owns (c : Thread nD τ) arg7 fullShare (step1 x0 x1 x2 zero1).2) -∗ K ⟨⟩))
      ⊢ wp frame (wpE (defs₀ (F := F)) Variants.none c none) E (cc1__aggregate_kernel i arg2 harg2 arg3 harg3 arg4 harg4 arg5 harg5 arg6 harg6 arg7 harg7) K := by
  simp only [cc1__aggregate_kernel_eq_skeleton]; unfold cc1__aggregate_kernel_skel
  unfold owns
  iintro ⟨⟨%f0, %hf0, H0⟩, ⟨%f1, %hf1, H1⟩, ⟨%f2, %hf2, H2⟩, ⟨%d6, %f6, -, H6⟩, ⟨%d7, %f7, -, H7⟩, Hk⟩
  subst hf0 hf1 hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H6]
  · iexists _; isplitr
    swap; · iexact H6
    ipureintro
    (try sl_unfold_words)
    rw [read_store_whole1 _ _ zeros1_2]
    unfold step1 zero1; dsimp only
    simp only [View.readAt_eq_ld, View.readCov_unit_zero (S := S256x256) _ zeros1_2, View.ld_unit_zero (S := S256x256) zeros1_2, View.ld_unit_zero (S := S256x512) zeros1_2, View.ld_unit_zero (S := S512x512) zeros1_2]
  iexists _; isplitr
  swap; · iexact H7
  ipureintro
  (try sl_unfold_words)
  rw [read_store_whole1 _ _ zeros1_2]
  unfold step1 zero1; dsimp only
  simp only [View.readAt_eq_ld, View.readCov_unit_zero (S := S256x256) _ zeros1_2, View.ld_unit_zero (S := S256x256) zeros1_2, View.ld_unit_zero (S := S256x512) zeros1_2, View.ld_unit_zero (S := S512x512) zeros1_2]

set_option maxHeartbeats 1000000 in
/-- A row panel's last point (the second conditional taken): each accumulator is read, updated and stored, then both are copied
    side by side into the output buffer, whose two stores tile it. -/
theorem run1_last (c : Dev nD) (E : Set ℕ) (i : grid1.Coords)
    (arg2 : Memref sig .tc .vmem S256x512 .f32) (harg2 : arg2.IsWhole) (arg3 : Memref sig .tc .vmem S256x512 .f32) (harg3 : arg3.IsWhole)
    (arg4 : Memref sig .tc .vmem S512x512 .f32) (harg4 : arg4.IsWhole) (arg5 : Memref sig .tc .vmem S256x512 .f32) (harg5 : arg5.IsWhole)
    (arg6 : Memref sig .tc .vmem S256x256 .f32) (harg6 : arg6.IsWhole) (arg7 : Memref sig .tc .vmem S256x256 .f32) (harg7 : arg7.IsWhole)
    (hc0 : ¬cond1_0 i) (hc1 : cond1_1 i)
    (x0 x1 : Vec F S256x512 .f32) (x2 : Vec F S512x512 .f32) (s : Vec F S256x256 .f32 × Vec F S256x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ owns (c : Thread nD τ) arg6 fullShare s.1 ∗ owns (c : Thread nD τ) arg7 fullShare s.2
        ∗ (iprop(owns (c : Thread nD τ) arg2 fullShare x0 ∗ owns (c : Thread nD τ) arg3 fullShare x1 ∗ owns (c : Thread nD τ) arg4 fullShare x2
            ∗ owns (c : Thread nD τ) arg5 fullShare (outBlk1 (step1 x0 x1 x2 s))
            ∗ owns (c : Thread nD τ) arg6 fullShare (step1 x0 x1 x2 s).1 ∗ owns (c : Thread nD τ) arg7 fullShare (step1 x0 x1 x2 s).2) -∗ K ⟨⟩))
      ⊢ wp frame (wpE (defs₀ (F := F)) Variants.none c none) E (cc1__aggregate_kernel i arg2 harg2 arg3 harg3 arg4 harg4 arg5 harg5 arg6 harg6 arg7 harg7) K := by
  obtain ⟨s6, s7⟩ := s
  simp only [cc1__aggregate_kernel_eq_skeleton]; unfold cc1__aggregate_kernel_skel
  unfold owns
  iintro ⟨⟨%f0, %hf0, H0⟩, ⟨%f1, %hf1, H1⟩, ⟨%f2, %hf2, H2⟩, ⟨%d5, %f5, -, H5⟩, ⟨%f6, %hf6, H6⟩, ⟨%f7, %hf7, H7⟩, Hk⟩
  dsimp only at hf6 hf7
  subst hf0 hf1 hf2 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    rw [View.read_writes_eq_canon _ _ _ (cover1_3 _ _)]
    unfold outBlk1 step1; dsimp only
    (try sl_unfold_words)
    simp only [View.readAt_eq_ld, View.readCov_unit_zero (S := S256x256) _ zeros1_2, View.ld_unit_zero (S := S256x256) zeros1_2, View.ld_unit_zero (S := S256x512) zeros1_2, View.ld_unit_zero (S := S512x512) zeros1_2]
  isplitl [H6]
  · iexists _; isplitr
    swap; · iexact H6
    ipureintro
    (try sl_unfold_words)
    rw [read_store_whole1 _ _ zeros1_2]
    unfold step1; dsimp only
    simp only [View.readAt_eq_ld, View.readCov_unit_zero (S := S256x256) _ zeros1_2, View.ld_unit_zero (S := S256x256) zeros1_2, View.ld_unit_zero (S := S256x512) zeros1_2, View.ld_unit_zero (S := S512x512) zeros1_2]
  iexists _; isplitr
  swap; · iexact H7
  ipureintro
  (try sl_unfold_words)
  rw [read_store_whole1 _ _ zeros1_2]
  unfold step1; dsimp only
  simp only [View.readAt_eq_ld, View.readCov_unit_zero (S := S256x256) _ zeros1_2, View.ld_unit_zero (S := S256x256) zeros1_2, View.ld_unit_zero (S := S256x512) zeros1_2, View.ld_unit_zero (S := S512x512) zeros1_2]

/-! ## Where the windows are idle -/

/-- The three inputs are never idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
/-- The output window is idle off a row panel's last point, -/
theorem idleAt1_3 : ∀ t : Fin cfg1.N, ¬t.val % 8 = 7 → cfg1.idle 3 (grid1.coords t) = true :=
  (by decide +kernel : ∀ t : Fin grid1.N, ¬t.val % 8 = 7 → cfg1.idle 3 (grid1.coords t) = true)
/-- live at it, -/
theorem liveAt1_3 : ∀ t : Fin cfg1.N, t.val % 8 = 7 → cfg1.idle 3 (grid1.coords t) = false :=
  (by decide +kernel : ∀ t : Fin grid1.N, t.val % 8 = 7 → cfg1.idle 3 (grid1.coords t) = false)
/-- and not written back off it. -/
theorem noFlush1_3 (t : Fin cfg1.N) (h : ¬t.val % 8 = 7) : (cfg1.win 3).flush t = false := by
  cases hf : (cfg1.win 3).flush t with
  | false => rfl
  | true => exact absurd ((flush1_3 t).mp hf) h

/-! ## The invariant before the first point, with the accumulators as memrefs -/

/-- What the launch hands the region, split: the other scoped buffers, each accumulator at some contents, the generator register. -/
theorem PhiA1_split (c : Dev nD) : (Pipeline.ΦA spec1 c : sProp 𝕄)
    ⊢ iprop(others1 (F := F) c ∗ (∃ d, owns (c : Thread nD τ) scM6 fullShare d) ∗ (∃ d, owns (c : Thread nD τ) scM7 fullShare d) ∗ (∃ r, prngReg c r)) := by
  unfold Pipeline.ΦA others1; rw [scopedRest1_eq]; simp only [scM6, scM7, owns_whole]
  iintro ⟨⟨A0, A1, A2, A3, A4, A5, A6, A7, S0, S1⟩, Hg⟩
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [S0]; · iexact S0
  isplitl [S1]; · iexact S1
  iexact Hg

/-- and put together again. -/
theorem PhiA1_join (c : Dev nD) :
    iprop(others1 (F := F) c ∗ (∃ d, owns (c : Thread nD τ) scM6 fullShare d) ∗ (∃ d, owns (c : Thread nD τ) scM7 fullShare d) ∗ (∃ r, prngReg c r))
      ⊢ (Pipeline.ΦA spec1 c : sProp 𝕄) := by
  unfold Pipeline.ΦA others1; rw [scopedRest1_eq]; simp only [scM6, scM7, owns_whole]
  iintro ⟨⟨A0, A1, A2, A3, A4, A5, A6, A7⟩, S0, S1, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [S0]; · iexact S0
    iexact S1
  iexact Hg

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The inputs' buffers hold their blocks; the point's position in its row panel says which case it is in.
    At a first point the accumulators are handed over at anything (before the region's first point by the launch's invariant,
    later by forgetting what the point before left) and come back one step from zero; elsewhere they are handed over at what the
    point before left and come back one step further. The output buffer is handed back as found except at a last point, where it
    comes back at the two accumulators side by side. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [PhiS1_castSucc V c t]
  by_cases h0 : t.val % 8 = 0
  · have h7 : ¬t.val % 8 = 7 := by omega
    rw [Dat.leavesExact_idle (dat1 V c) 3 t (idleAt1_3 t h7) (noFlush1_3 t h7), scAt1_first V c t h0]
    by_cases hz0 : t.val = 0
    · rw [PhiS1_zero V c _ _ hz0]
      iintro ⟨HΦ, Ho, ⟨%d0, H0⟩, ⟨%d1, H1⟩, ⟨%d2, H2⟩, H3⟩
      icases (PhiA1_split c) $$ HΦ with ⟨Hoth, HS6, HS7, Hg⟩
      iapply (run1_first c Set.univ (grid1.coords t) _ _ _ _ _ _ _ _ _ _ _ _ ((hcond1_0 t).mpr h0) (fun h => h7 ((hcond1_1 t).mp h))
        (iblk1 V c 0 t) (iblk1 V c 1 t) (iblk1 V c 2 t) _)
      isplitl [H0]; · iexact H0
      isplitl [H1]; · iexact H1
      isplitl [H2]; · iexact H2
      isplitl [HS6]; · iexact HS6
      isplitl [HS7]; · iexact HS7
      iintro ⟨H0, H1, H2, HS6, HS7⟩
      isplitl [Hoth HS6 HS7 Hg]
      · isplitl [Hoth]; · iexact Hoth
        isplitl [HS6]; · iexact HS6
        isplitl [HS7]; · iexact HS7
        iexact Hg
      isplitl [Ho]; · iexact Ho
      isplitl [H0]; · iexact H0
      isplitl [H1]; · iexact H1
      isplitl [H2]; · iexact H2
      iexact H3
    · rw [PhiS1_pos V c _ _ hz0]
      iintro ⟨⟨Hoth, HS6, HS7, Hg⟩, Ho, ⟨%d0, H0⟩, ⟨%d1, H1⟩, ⟨%d2, H2⟩, H3⟩
      iapply (run1_first c Set.univ (grid1.coords t) _ _ _ _ _ _ _ _ _ _ _ _ ((hcond1_0 t).mpr h0) (fun h => h7 ((hcond1_1 t).mp h))
        (iblk1 V c 0 t) (iblk1 V c 1 t) (iblk1 V c 2 t) _)
      isplitl [H0]; · iexact H0
      isplitl [H1]; · iexact H1
      isplitl [H2]; · iexact H2
      isplitl [HS6]; · iexists _; iexact HS6
      isplitl [HS7]; · iexists _; iexact HS7
      iintro ⟨H0, H1, H2, HS6, HS7⟩
      isplitl [Hoth HS6 HS7 Hg]
      · isplitl [Hoth]; · iexact Hoth
        isplitl [HS6]; · iexact HS6
        isplitl [HS7]; · iexact HS7
        iexact Hg
      isplitl [Ho]; · iexact Ho
      isplitl [H0]; · iexact H0
      isplitl [H1]; · iexact H1
      isplitl [H2]; · iexact H2
      iexact H3
  · have hz0 : t.val ≠ 0 := fun h => h0 (by rw [h])
    rw [PhiS1_pos V c _ _ hz0, scAt1_next V c t h0]
    by_cases h7 : t.val % 8 = 7
    · rw [show (dat1 V c).leavesExact 3 t = owns (c : Thread nD τ) (st1_3 t) fullShare ((dat1 V c).after 3 t) from by
        unfold Dat.leavesExact; rw [liveAt1_3 t h7], after1_3, scAt1_next V c t h0]
      iintro ⟨⟨Hoth, HS6, HS7, Hg⟩, Ho, ⟨%d0, H0⟩, ⟨%d1, H1⟩, ⟨%d2, H2⟩, ⟨%d3, H3⟩⟩
      iapply (run1_last c Set.univ (grid1.coords t) _ _ _ _ _ _ _ _ _ _ _ _ (fun h => h0 ((hcond1_0 t).mp h)) ((hcond1_1 t).mpr h7)
        (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS6]; · iexact HS6
      isplitl [HS7]; · iexact HS7
      iintro ⟨H0, H1, H2, H3, HS6, HS7⟩
      isplitl [Hoth HS6 HS7 Hg]
      · isplitl [Hoth]; · iexact Hoth
        isplitl [HS6]; · iexact HS6
        isplitl [HS7]; · iexact HS7
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h7) (noFlush1_3 t h7)]
      iintro ⟨⟨Hoth, HS6, HS7, Hg⟩, Ho, ⟨%d0, H0⟩, ⟨%d1, H1⟩, ⟨%d2, H2⟩, H3⟩
      iapply (run1_mid c Set.univ (grid1.coords t) _ _ _ _ _ _ _ _ _ _ _ _ (fun h => h0 ((hcond1_0 t).mp h)) (fun h => h7 ((hcond1_1 t).mp h))
        (iblk1 V c 0 t) (iblk1 V c 1 t) (iblk1 V c 2 t) _ _)
      isplitl [H0]; · iexact H0
      isplitl [H1]; · iexact H1
      isplitl [H2]; · iexact H2
      isplitl [HS6]; · iexact HS6
      isplitl [HS7]; · iexact HS7
      iintro ⟨H0, H1, H2, HS6, HS7⟩
      isplitl [Hoth HS6 HS7 Hg]
      · isplitl [Hoth]; · iexact Hoth
        isplitl [HS6]; · iexact HS6
        isplitl [HS7]; · iexact HS7
        iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the accumulators' named contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hN]
  refine BIBase.Entails.trans ?_ (PhiA1_join c)
  iintro ⟨Hoth, HS6, HS7, Hg⟩
  isplitl [Hoth]; · iexact Hoth
  isplitl [HS6]; · iexists _; iexact HS6
  isplitl [HS7]; · iexists _; iexact HS7
  iexact Hg

end Cert.ReferenceIdeal.Hand

end
-- ==== Proof.Algebra.lean ====
/-
  Eight block sums of 512 terms, added one after another onto zero, are the whole sum of 4096 terms: addition of
  extended reals is associative and commutative, so a finite sum may be grouped at will.
-/
import proofs.«153760_g2000202054435738_pallasbulk_107_3_alg».proof.Proof.Spec
import Mathlib.Algebra.BigOperators.Fin
import Mathlib.Data.EReal.Basic
import Mathlib.Logic.Equiv.Fin.Basic

namespace Cert.GC

open Idealize.ShloMosaic Idealize.ShloMosaic.ValueIdx

/-- Block `a` of the sum is the sum over the second coordinate of the pair (a, ·) under the bijection
    (a, b) ↦ b + 512 · a between pairs and the 4096 positions. -/
theorem blockSum_eq_pair (f : Fin 4096 → EReal) (a : Fin 8) :
    blockSum f a.val = ∑ b : Fin 512, f ((finProdFinEquiv : Fin 8 × Fin 512 ≃ Fin (8 * 512)) (a, b)) := by
  unfold blockSum
  refine Finset.sum_congr rfl fun b _ => ?_
  congr 1
  apply Fin.ext
  have ha := a.isLt
  have hb := b.isLt
  show a.val % 8 * 512 + b.val = b.val + 512 * a.val
  rw [Nat.mod_eq_of_lt ha]
  omega

/-- The running total after all eight blocks is the whole sum. -/
theorem accB_eight (f : Fin 4096 → EReal) : accB f 8 = ∑ k : Fin 4096, f k := by
  have h : (∑ k : Fin 4096, f k)
      = ∑ p : Fin 8 × Fin 512, f ((finProdFinEquiv : Fin 8 × Fin 512 ≃ Fin (8 * 512)) p) :=
    (Equiv.sum_comp (finProdFinEquiv : Fin 8 × Fin 512 ≃ Fin (8 * 512)) f).symm
  rw [h, Fintype.sum_prod_type, Fin.sum_univ_eight]
  simp only [← blockSum_eq_pair]
  simp only [accB, zero_add]
  rfl

theorem aggMB_eq (adj : A4096x4096.Idx → EReal) (inn : A4096x512.Idx → EReal) : aggMB adj inn = aggM adj inn :=
  funext fun _ => accB_eight _

theorem aggSB_eq (adj : A4096x4096.Idx → EReal) (inn : A4096x512.Idx → EReal) : aggSB adj inn = aggS adj inn :=
  funext fun _ => accB_eight _

end Cert.GC
-- ==== Proof.lean ====
/-
  The claim: the two-stage graph convolution kernel against its reference, on the extended reals.

  Both programs first form the feature array  inner = [ (miu · att) Wm | (sigma · att · att) Ws ]  with
  att = exp (-1 · sigma), 4096 × 512, by the same operations (the kernel's narrowing of the weights and of the
  products is the identity on extended reals), and then aggregate:  m = adj1 · inner[:, 0..255],
  s = adj2 · inner[:, 256..511].  The kernel contracts all 4096 terms of a row in one product; the reference adds
  eight block sums of 512 terms one after another onto zero. Addition of extended reals is associative and
  commutative, so the two are the same sum, whatever the inputs: the precondition is not used for the values.

  Frames: the kernel's two are its generated frame certificates; the reference's is its value run with the results
  dropped.
-/
import proofs.«153760_g2000202054435738_pallasbulk_107_3_alg».proof.Defs
import proofs.«153760_g2000202054435738_pallasbulk_107_3_alg».proof.Proof.Gen.Kernel
import proofs.«153760_g2000202054435738_pallasbulk_107_3_alg».proof.Proof.Gen.Kernel.Frame
import proofs.«153760_g2000202054435738_pallasbulk_107_3_alg».proof.Proof.Gen.KernelIdeal
import proofs.«153760_g2000202054435738_pallasbulk_107_3_alg».proof.Proof.Gen.KernelIdeal.Frame
import proofs.«153760_g2000202054435738_pallasbulk_107_3_alg».proof.Proof.Gen.ReferenceIdeal
import proofs.«153760_g2000202054435738_pallasbulk_107_3_alg».proof.Proof.Gen.Pre_finite_inputs
import proofs.«153760_g2000202054435738_pallasbulk_107_3_alg».proof.Proof.KValue
import proofs.«153760_g2000202054435738_pallasbulk_107_3_alg».proof.Proof.RValue
import proofs.«153760_g2000202054435738_pallasbulk_107_3_alg».proof.Proof.RBody1
import proofs.«153760_g2000202054435738_pallasbulk_107_3_alg».proof.Proof.Algebra
import Idealize.ShloMosaic.Adequacy
import Idealize.ShloMosaic.Init

noncomputable section

namespace Cert.Proof

open Idealize.ShloMosaic Idealize.SL.Sem

/-- The reference's aggregation region meets its three obligations, at the ideal values. -/
theorem agg : Cert.ReferenceIdeal.Hand.Agg (F := Ideal) :=
  ⟨fun V c => Cert.ReferenceIdeal.Hand.body_obligation1 V c, fun V c => Cert.ReferenceIdeal.Hand.hin1 V c,
    fun V c => Cert.ReferenceIdeal.Hand.hout1 V c⟩

theorem frame_k : Cert.frame_Kernel := fun m ρ _ => Cert.Kernel.Gen.frame m ρ

theorem frame_ki : Cert.frame_KernelIdeal := fun m ρ _ => Cert.KernelIdeal.Gen.frame m ρ

/-- The reference's frame: its value run, the results dropped. -/
theorem frame_ri : Cert.frame_ReferenceIdeal := fun m ρ _ =>
  (θ_run Cert.ReferenceIdeal.defs _ _).mono (fun _ h c => (h c).2.2) (Cert.ReferenceIdeal.Hand.run_value m ρ agg)

/-- From memories agreeing on the arguments both programs end with the same two arrays: the blocked sums are the whole sums. -/
theorem algebraic : Cert.algebraic_KernelIdeal_ReferenceIdeal := by
  intro m ρ m' ρ' _ hagree
  refine ⟨fun c => Cert.KernelIdeal.Hand.resM m c, fun c => Cert.KernelIdeal.Hand.resS m c,
    Cert.KernelIdeal.Hand.run_value m ρ, ?_⟩
  refine (θ_run Cert.ReferenceIdeal.defs _ _).mono (fun _ h c => ⟨(h c).1.trans ?_, (h c).2.1.trans ?_, (h c).2.2⟩)
    (Cert.ReferenceIdeal.Hand.run_value m' ρ' agg)
  · unfold Cert.ReferenceIdeal.Hand.resMB Cert.KernelIdeal.Hand.resM
    rw [(hagree c).1, (hagree c).2.1, (hagree c).2.2.1, (hagree c).2.2.2.1, (hagree c).2.2.2.2.1, Cert.GC.aggMB_eq]
  · unfold Cert.ReferenceIdeal.Hand.resSB Cert.KernelIdeal.Hand.resS
    rw [(hagree c).1, (hagree c).2.1, (hagree c).2.2.1, (hagree c).2.2.2.1, (hagree c).2.2.2.2.2, Cert.GC.aggSB_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
